-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x18 : Shape := ⟨2, ![100000, 18]⟩
abbrev S2x3200000 : Shape := ⟨2, ![2, 3200000]⟩
abbrev S2x8192 : Shape := ⟨2, ![2, 8192]⟩
abbrev S18x64 : Shape := ⟨2, ![18, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x18 : S_.BroadcastsInDim S100000x18 (![] : Fin 0 → Fin S100000x18.rank)
  reducesTo_S100000x18_S_d0_1 : S100000x18.ReducesTo [0, 1] S_
  h_S_ : 0 < S_.numel
  bcast_S_S18x64 : S_.BroadcastsInDim S18x64 (![] : Fin 0 → Fin S18x64.rank)
  reducesTo_S18x64_S_d0_1 : S18x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S32 .f32) (main_arg7 : FVec F S32x1 .f32) (main_arg8 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg7
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x18 .f32) (main_arg1 : IVec S2x3200000 32) (main_arg2 : IVec S2x8192 32) (main_arg3 : FVec F S18x64 .f32) (main_arg4 : FVec F S64 .f32) (main_arg5 : FVec F S64x32 .f32) (main_arg6 : FVec F S32 .f32) (main_arg7 : FVec F S32x1 .f32) (main_arg8 : FVec F S1 .f32) : IVec S_ 1 :=
  let main_v0 : FVec F S100000x18 .f32 := Host.absf main_arg0
  let main_cst : FVec F S_ .f32 := constant S_ .f32 0x7F800000#32
  let main_v1 : FVec F S100000x18 .f32 := broadcastInDim S100000x18 ![] bcast_S_S100000x18 main_cst
  let main_v2 : IVec S100000x18 1 := cmpf .olt main_v0 main_v1
  let main_c : IVec S_ 1 := constantI S_ 1 1#1
  let main_v3 : IVec S_ 1 := (fun x v => Host.reduce IntOp.andi x v reducesTo_S100000x18_S_d0_1 h_S_) main_v2 main_c
  let main_v4 : FVec F S18x64 .f32 := Host.absf main_arg3
  let main_cst_0 : FVec F S_ .f32 := constant S_ .f32 0x7F800000#32
  let main_v5 : FVec F S18x64 .f32 := broadcastInDim S18x64 ![] bcast_S_S18x64 main_cst_0
  let main_v6 : IVec S18x64 1 := cmpf .olt main_v4 main_v5
  let main_c_1 : IVec S_ 1 := constantI S_ 1 1#1
  let main_v7 : IVec S_ 1 := (fun x v => Host.reduce IntOp.andi x v reducesTo_S18x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_arg7 main_arg8 main_v13 main_v16
-- ==== Kernel.lean ====
abbrev S100000x18 : Shape := ⟨2, ![100000, 18]⟩
abbrev S2x3200000 : Shape := ⟨2, ![2, 3200000]⟩
abbrev S2x8192 : Shape := ⟨2, ![2, 8192]⟩
abbrev S18x64 : Shape := ⟨2, ![18, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x18 : Shape := ⟨2, ![5000, 18]⟩
abbrev S5000x64 : Shape := ⟨2, ![5000, 64]⟩
abbrev S3300000x64 : Shape := ⟨2, ![3300000, 64]⟩
abbrev S1x64 : Shape := ⟨2, ![1, 64]⟩
abbrev S100000x32 : Shape := ⟨2, ![100000, 32]⟩
abbrev S5000x32 : Shape := ⟨2, ![5000, 32]⟩
abbrev S3300000x32 : Shape := ⟨2, ![3300000, 32]⟩
abbrev S1x32 : Shape := ⟨2, ![1, 32]⟩
abbrev S1x8192 : Shape := ⟨2, ![1, 8192]⟩
abbrev S8192 : Shape := ⟨1, ![8192]⟩
abbrev S8192x1 : Shape := ⟨2, ![8192, 1]⟩
abbrev S8192x32 : Shape := ⟨2, ![8192, 32]⟩
abbrev S1x1 : Shape := ⟨2, ![1, 1]⟩
abbrev S2048x32 : Shape := ⟨2, ![2048, 32]⟩
abbrev S2048x1 : Shape := ⟨2, ![2048, 1]⟩

abbrev nBuf : Space → Nat
  | .hbm => 103
  | .vmem => 24
  | .smem => 0
  | _ => 0

abbrev bufTy : (tb : Table) → Fin (tcTables nBuf tb) → BufTy
  | .hbm, ⟨0, _⟩ => ⟨S100000x18, .f32⟩
  | .hbm, ⟨1, _⟩ => ⟨S2x3200000, .i32⟩
  | .hbm, ⟨2, _⟩ => ⟨S2x8192, .i32⟩
  | .hbm, ⟨3, _⟩ => ⟨S18x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S3300000, .i32⟩
  | .hbm, ⟨25, _⟩ => ⟨S3300000, .i1⟩
  | .hbm, ⟨26, _⟩ => ⟨S_, .i32⟩
  | .hbm, ⟨27, _⟩ => ⟨S3300000, .i32⟩
  | .hbm, ⟨28, _⟩ => ⟨S3300000, .i32⟩
  | .hbm, ⟨29, _⟩ => ⟨S3300000, .i32⟩
  | .hbm, ⟨30, _⟩ => ⟨S3300000x1, .i32⟩
  | .hbm, ⟨31, _⟩ => ⟨S3300000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S3300000, .f32⟩
  | .hbm, ⟨42, _⟩ => ⟨S100000x64, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000x64, .f32⟩
  | .hbm, ⟨52, _⟩ => ⟨S3300000x1, .f32⟩
  | .hbm, ⟨53, _⟩ => ⟨S3300000x64, .f32⟩
  | .hbm, ⟨54, _⟩ => ⟨S3300000x64, .f32⟩
  | .hbm, ⟨55, _⟩ => ⟨S_, .f32⟩
  | .hbm, ⟨56, _⟩ => ⟨S100000x64, .f32⟩
  | .hbm, ⟨57, _⟩ => ⟨S3300000x1, .i32⟩
  | .hbm, ⟨58, _⟩ => ⟨S100000x64, .f32⟩
  | .hbm, ⟨59, _⟩ => ⟨S1x64, .f32⟩
  | .hbm, ⟨60, _⟩ => ⟨S100000x32, .f32⟩
  | .hbm, ⟨61, _⟩ => ⟨S_, .i32⟩
  | .hbm, ⟨62, _⟩ => ⟨S3300000, .i32⟩
  | .hbm, ⟨63, _⟩ => ⟨S3300000, .i1⟩
  | .hbm, ⟨64, _⟩ => ⟨S_, .i32⟩
  | .hbm, ⟨65, _⟩ => ⟨S3300000, .i32⟩
  | .hbm, ⟨66, _⟩ => ⟨S3300000, .i32⟩
  | .hbm, ⟨67, _⟩ => ⟨S3300000, .i32⟩
  | .hbm, ⟨68, _⟩ => ⟨S3300000x1, .i32⟩
  | .hbm, ⟨69, _⟩ => ⟨S3300000x32, .f32⟩
  | .hbm, ⟨70, _⟩ => ⟨S3300000x1, .f32⟩
  | .hbm, ⟨71, _⟩ => ⟨S3300000x32, .f32⟩
  | .hbm, ⟨72, _⟩ => ⟨S3300000x32, .f32⟩
  | .hbm, ⟨73, _⟩ => ⟨S_, .f32⟩
  | .hbm, ⟨74, _⟩ => ⟨S100000x32, .f32⟩
  | .hbm, ⟨75, _⟩ => ⟨S3300000x1, .i32⟩
  | .hbm, ⟨76, _⟩ => ⟨S100000x32, .f32⟩
  | .hbm, ⟨77, _⟩ => ⟨S1x32, .f32⟩
  | .hbm, ⟨78, _⟩ => ⟨S100000x32, .f32⟩
  | .hbm, ⟨79, _⟩ => ⟨S1x8192, .i32⟩
  | .hbm, ⟨80, _⟩ => ⟨S8192, .i32⟩
  | .hbm, ⟨81, _⟩ => ⟨S_, .i32⟩
  | .hbm, ⟨82, _⟩ => ⟨S8192, .i32⟩
  | .hbm, ⟨83, _⟩ => ⟨S8192, .i1⟩
  | .hbm, ⟨84, _⟩ => ⟨S_, .i32⟩
  | .hbm, ⟨85, _⟩ => ⟨S8192, .i32⟩
  | .hbm, ⟨86, _⟩ => ⟨S8192, .i32⟩
  | .hbm, ⟨87, _⟩ => ⟨S8192, .i32⟩
  | .hbm, ⟨88, _⟩ => ⟨S8192x1, .i32⟩
  | .hbm, ⟨89, _⟩ => ⟨S8192x32, .f32⟩
  | .hbm, ⟨90, _⟩ => ⟨S1x8192, .i32⟩
  | .hbm, ⟨91, _⟩ => ⟨S8192, .i32⟩
  | .hbm, ⟨92, _⟩ => ⟨S_, .i32⟩
  | .hbm, ⟨93, _⟩ => ⟨S8192, .i32⟩
  | .hbm, ⟨94, _⟩ => ⟨S8192, .i1⟩
  | .hbm, ⟨95, _⟩ => ⟨S_, .i32⟩
  | .hbm, ⟨96, _⟩ => ⟨S8192, .i32⟩
  | .hbm, ⟨97, _⟩ => ⟨S8192, .i32⟩
  | .hbm, ⟨98, _⟩ => ⟨S8192, .i32⟩
  | .hbm, ⟨99, _⟩ => ⟨S8192x1, .i32⟩
  | .hbm, ⟨100, _⟩ => ⟨S8192x32, .f32⟩
  | .hbm, ⟨101, _⟩ => ⟨S1x1, .f32⟩
  | .hbm, ⟨102, _⟩ => ⟨S8192x1, .f32⟩
  | .local _ .vmem, ⟨0, _⟩ => ⟨S5000x18, .f32⟩
  | .local _ .vmem, ⟨1, _⟩ => ⟨S5000x18, .f32⟩
  | .local _ .vmem, ⟨2, _⟩ => ⟨S18x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S1x32, .f32⟩
  | .local _ .vmem, ⟨14, _⟩ => ⟨S5000x32, .f32⟩
  | .local _ .vmem, ⟨15, _⟩ => ⟨S5000x32, .f32⟩
  | .local _ .vmem, ⟨16, _⟩ => ⟨S2048x32, .f32⟩
  | .local _ .vmem, ⟨17, _⟩ => ⟨S2048x32, .f32⟩
  | .local _ .vmem, ⟨18, _⟩ => ⟨S2048x32, .f32⟩
  | .local _ .vmem, ⟨19, _⟩ => ⟨S2048x32, .f32⟩
  | .local _ .vmem, ⟨20, _⟩ => ⟨S32x1, .f32⟩
  | .local _ .vmem, ⟨21, _⟩ => ⟨S1x1, .f32⟩
  | .local _ .vmem, ⟨22, _⟩ => ⟨S2048x1, .f32⟩
  | .local _ .vmem, ⟨23, _⟩ => ⟨S2048x1, .f32⟩
  | _, _ => ⟨S100000x18, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_7 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_10 : Ref sig .tc := ⟨.hbm, 81, rfl⟩
abbrev main_v60 : Ref sig .tc := ⟨.hbm, 82, rfl⟩
abbrev main_v61 : Ref sig .tc := ⟨.hbm, 83, rfl⟩
abbrev main_c_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_12 : Ref sig .tc := ⟨.hbm, 92, rfl⟩
abbrev main_v69 : Ref sig .tc := ⟨.hbm, 93, rfl⟩
abbrev main_v70 : Ref sig .tc := ⟨.hbm, 94, rfl⟩
abbrev main_c_13 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem3_0 : DmaSem sig := 21
abbrev cc3_sem4_0 : DmaSem sig := 22
abbrev cc3_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x18 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S18x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2048x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x18_S5000x18_0_0 : ∀ a, (![0, 0] : Fin 2 → Nat) a + S5000x18.size a ≤ S5000x18.size a
  h_S5000x18 : 0 < S5000x18.numel
  bitsLt_bf16_f32 : FTy.bits .bf16 < FTy.bits .f32
  inb_S18x64_S18x64_0_0 : ∀ a, (![0, 0] : Fin 2 → Nat) a + S18x64.size a ≤ S18x64.size a
  h_S18x64 : 0 < S18x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  slices_S2x8192_S1x8192_0_0 : S2x8192.Slices ![0, 0] S1x8192
  shapeCasts_S1x8192_S8192 : S1x8192.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  slices_S2x8192_S1x8192_1_0 : S2x8192.Slices ![1, 0] S1x8192
  shapeCasts_S1_S1x1 : S1.ShapeCasts S1x1
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x18_S18x64_S5000x64_1_0_0_1_n_n_wf : DotDims.WF S5000x18 S18x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x32_S5000x32_1_0_0_1_n_n_wf : DotDims.WF S5000x64 S64x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  gather_S100000x32_S8192x1_S8192x32_1_0_n_n_0_1_132_wf : GatherDims.WF S100000x32 S8192x1 S8192x32 [1] [0] [] [0] [] 1 ![1, 32]
  dot_S2048x32_S32x1_S2048x1_1_0_0_1_n_n_wf : DotDims.WF S2048x32 S32x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x18.size a ≤ S100000x18.size a
  hwx0_0 : ∀ i : grid0.Coords, EltTy.bits .f32 = 32 ∨ (Rect.block (s := S100000x18) S5000x18.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S18x64.size a ≤ S18x64.size a
  hwx0_1 : ∀ i : grid0.Coords, EltTy.bits .f32 = 32 ∨ (Rect.block (s := S18x64) S18x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x32.size a ≤ S8192x32.size a
  hwx3_0 : ∀ i : grid3.Coords, EltTy.bits .f32 = 32 ∨ (Rect.block (s := S8192x32) S2048x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x32.size a ≤ S8192x32.size a
  hwx3_1 : ∀ i : grid3.Coords, EltTy.bits .f32 = 32 ∨ (Rect.block (s := S8192x32) S2048x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x1.size a ≤ S32x1.size a
  hwx3_2 : ∀ i : grid3.Coords, EltTy.bits .f32 = 32 ∨ (Rect.block (s := S32x1) S32x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x1.size a ≤ S8192x1.size a
  hwx3_4 : ∀ i : grid3.Coords, EltTy.bits .f32 = 32 ∨ (Rect.block (s := S8192x1) S2048x1.size (cc3_transform_4 i) (hinb3_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x18_S18x64_S5000x64_1_0_0_1_n_n : DotDims S5000x18 S18x64 S5000x64 where
  lhsContracting := [1]
  rhsContracting := [0]
  lhsNonContracting := [0]
  rhsNonContracting := [1]
  lhsBatch := []
  rhsBatch := []
  wf := dot_S5000x18_S18x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def gather_S100000x32_S8192x1_S8192x32_1_0_n_n_0_1_132 : GatherDims S100000x32 S8192x1 S8192x32 where
  offsetDims := [1]
  collapsedSliceDims := [0]
  operandBatchingDims := []
  startIndicesBatchingDims := []
  startIndexMap := [0]
  indexVectorDim := 1
  sliceSizes := ![1, 32]
  wf := gather_S100000x32_S8192x1_S8192x32_1_0_n_n_0_1_132_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_arg0) S5000x18.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S18x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S2048x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S2048x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S32x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S2048x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x18 : Shape := ⟨2, ![100000, 18]⟩
abbrev S2x3200000 : Shape := ⟨2, ![2, 3200000]⟩
abbrev S2x8192 : Shape := ⟨2, ![2, 8192]⟩
abbrev S18x64 : Shape := ⟨2, ![18, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x32 : Shape := ⟨2, ![100000, 32]⟩
abbrev S3300000x32 : Shape := ⟨2, ![3300000, 32]⟩
abbrev S1x32 : Shape := ⟨2, ![1, 32]⟩
abbrev S1x8192 : Shape := ⟨2, ![1, 8192]⟩
abbrev S8192 : Shape := ⟨1, ![8192]⟩
abbrev S8192x1 : Shape := ⟨2, ![8192, 1]⟩
abbrev S8192x32 : Shape := ⟨2, ![8192, 32]⟩
abbrev S1x1 : Shape := ⟨2, ![1, 1]⟩

abbrev nBuf : Space → Nat
  | .hbm => 112
  | .vmem => 0
  | .smem => 0
  | _ => 0

abbrev bufTy : (tb : Table) → Fin (tcTables nBuf tb) → BufTy
  | .hbm, ⟨0, _⟩ => ⟨S100000x18, .f32⟩
  | .hbm, ⟨1, _⟩ => ⟨S2x3200000, .i32⟩
  | .hbm, ⟨2, _⟩ => ⟨S2x8192, .i32⟩
  | .hbm, ⟨3, _⟩ => ⟨S18x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S3300000, .i32⟩
  | .hbm, ⟨25, _⟩ => ⟨S3300000, .i1⟩
  | .hbm, ⟨26, _⟩ => ⟨S_, .i32⟩
  | .hbm, ⟨27, _⟩ => ⟨S3300000, .i32⟩
  | .hbm, ⟨28, _⟩ => ⟨S3300000, .i32⟩
  | .hbm, ⟨29, _⟩ => ⟨S3300000, .i32⟩
  | .hbm, ⟨30, _⟩ => ⟨S3300000x1, .i32⟩
  | .hbm, ⟨31, _⟩ => ⟨S3300000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S3300000, .f32⟩
  | .hbm, ⟨42, _⟩ => ⟨S100000x64, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000x64, .f32⟩
  | .hbm, ⟨52, _⟩ => ⟨S3300000x1, .f32⟩
  | .hbm, ⟨53, _⟩ => ⟨S3300000x64, .f32⟩
  | .hbm, ⟨54, _⟩ => ⟨S3300000x64, .f32⟩
  | .hbm, ⟨55, _⟩ => ⟨S_, .f32⟩
  | .hbm, ⟨56, _⟩ => ⟨S100000x64, .f32⟩
  | .hbm, ⟨57, _⟩ => ⟨S3300000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000x32, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x32, .f32⟩
  | .hbm, ⟨75, _⟩ => ⟨S3300000x1, .f32⟩
  | .hbm, ⟨76, _⟩ => ⟨S3300000x32, .f32⟩
  | .hbm, ⟨77, _⟩ => ⟨S3300000x32, .f32⟩
  | .hbm, ⟨78, _⟩ => ⟨S_, .f32⟩
  | .hbm, ⟨79, _⟩ => ⟨S100000x32, .f32⟩
  | .hbm, ⟨80, _⟩ => ⟨S3300000x1, .i32⟩
  | .hbm, ⟨81, _⟩ => ⟨S100000x32, .f32⟩
  | .hbm, ⟨82, _⟩ => ⟨S1x32, .f32⟩
  | .hbm, ⟨83, _⟩ => ⟨S100000x32, .f32⟩
  | .hbm, ⟨84, _⟩ => ⟨S100000x32, .f32⟩
  | .hbm, ⟨85, _⟩ => ⟨S1x8192, .i32⟩
  | .hbm, ⟨86, _⟩ => ⟨S8192, .i32⟩
  | .hbm, ⟨87, _⟩ => ⟨S_, .i32⟩
  | .hbm, ⟨88, _⟩ => ⟨S8192, .i32⟩
  | .hbm, ⟨89, _⟩ => ⟨S8192, .i1⟩
  | .hbm, ⟨90, _⟩ => ⟨S_, .i32⟩
  | .hbm, ⟨91, _⟩ => ⟨S8192, .i32⟩
  | .hbm, ⟨92, _⟩ => ⟨S8192, .i32⟩
  | .hbm, ⟨93, _⟩ => ⟨S8192, .i32⟩
  | .hbm, ⟨94, _⟩ => ⟨S8192x1, .i32⟩
  | .hbm, ⟨95, _⟩ => ⟨S8192x32, .f32⟩
  | .hbm, ⟨96, _⟩ => ⟨S1x8192, .i32⟩
  | .hbm, ⟨97, _⟩ => ⟨S8192, .i32⟩
  | .hbm, ⟨98, _⟩ => ⟨S_, .i32⟩
  | .hbm, ⟨99, _⟩ => ⟨S8192, .i32⟩
  | .hbm, ⟨100, _⟩ => ⟨S8192, .i1⟩
  | .hbm, ⟨101, _⟩ => ⟨S_, .i32⟩
  | .hbm, ⟨102, _⟩ => ⟨S8192, .i32⟩
  | .hbm, ⟨103, _⟩ => ⟨S8192, .i32⟩
  | .hbm, ⟨104, _⟩ => ⟨S8192, .i32⟩
  | .hbm, ⟨105, _⟩ => ⟨S8192x1, .i32⟩
  | .hbm, ⟨106, _⟩ => ⟨S8192x32, .f32⟩
  | .hbm, ⟨107, _⟩ => ⟨S8192x32, .f32⟩
  | .hbm, ⟨108, _⟩ => ⟨S8192x1, .f32⟩
  | .hbm, ⟨109, _⟩ => ⟨S1x1, .f32⟩
  | .hbm, ⟨110, _⟩ => ⟨S8192x1, .f32⟩
  | .hbm, ⟨111, _⟩ => ⟨S8192x1, .f32⟩
  | _, _ => ⟨S100000x18, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_cst : Ref sig .tc := ⟨.hbm, 62, rfl⟩
abbrev main_call0_v0 : Ref sig .tc := ⟨.hbm, 63, rfl⟩
abbrev main_v44 : Ref sig .tc := ⟨.hbm, 64, rfl⟩
abbrev main_v45 : Ref sig .tc := ⟨.hbm, 65, rfl⟩
abbrev main_c_7 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_10 : Ref sig .tc := ⟨.hbm, 87, rfl⟩
abbrev main_v64 : Ref sig .tc := ⟨.hbm, 88, rfl⟩
abbrev main_v65 : Ref sig .tc := ⟨.hbm, 89, rfl⟩
abbrev main_c_11 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_12 : Ref sig .tc := ⟨.hbm, 98, rfl⟩
abbrev main_v73 : Ref sig .tc := ⟨.hbm, 99, rfl⟩
abbrev main_v74 : Ref sig .tc := ⟨.hbm, 100, rfl⟩
abbrev main_c_13 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S2x8192_S1x8192_0_0 : S2x8192.Slices ![0, 0] S1x8192
  shapeCasts_S1x8192_S8192 : S1x8192.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  slices_S2x8192_S1x8192_1_0 : S2x8192.Slices ![1, 0] S1x8192
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x18_S18x64_S100000x64_1_0_0_1_n_n_wf : DotDims.WF S100000x18 S18x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  gather_S100000x32_S8192x1_S8192x32_1_0_n_n_0_1_132_wf : GatherDims.WF S100000x32 S8192x1 S8192x32 [1] [0] [] [0] [] 1 ![1, 32]
  dot_S8192x32_S32x1_S8192x1_1_0_0_1_n_n_wf : DotDims.WF S8192x32 S32x1 S8192x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x18_S18x64_S100000x64_1_0_0_1_n_n : DotDims S100000x18 S18x64 S100000x64 where
  lhsContracting := [1]
  rhsContracting := [0]
  lhsNonContracting := [0]
  rhsNonContracting := [1]
  lhsBatch := []
  rhsBatch := []
  wf := dot_S100000x18_S18x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def gather_S100000x32_S8192x1_S8192x32_1_0_n_n_0_1_132 : GatherDims S100000x32 S8192x1 S8192x32 where
  offsetDims := [1]
  collapsedSliceDims := [0]
  operandBatchingDims := []
  startIndicesBatchingDims := []
  startIndexMap := [0]
  indexVectorDim := 1
  sliceSizes := ![1, 32]
  wf := gather_S100000x32_S8192x1_S8192x32_1_0_n_n_0_1_132_wf
def dot_S8192x32_S32x1_S8192x1_1_0_0_1_n_n : DotDims S8192x32 S32x1 S8192x1 where
  lhsContracting := [1]
  rhsContracting := [0]
  lhsNonContracting := [0]
  rhsNonContracting := [1]
  lhsBatch := []
  rhsBatch := []
  wf := dot_S8192x32_S32x1_S8192x1_1_0_0_1_n_n_wf

class Facts : Prop extends Facts₀ where

variable [Facts]
-- ==== Proof.Spec.lean ====
/-
  The network as ONE function of its nine argument arrays, in stages, written with the host operations the
  reference is printed in.

  A graph of 100000 nodes and 3200000 directed edges (`ei`: row 0 the sources, row 1 the destinations), every node
  given a self-loop, so 3300000 edges in all. With `deg` the number of edges arriving at a node and
  `norm e = deg(src e)^(-1/2) * deg(dst e)^(-1/2)`, one graph convolution of node features `h` is
  `agg(h)[v] = sum over the edges e arriving at v of h[src e] * norm e`. The network is
  `z = agg(relu(agg(x W1) + b1) W2) + b2`, then for each of 8192 node pairs `(z[a] * z[b]) Wo + bo`.
  Indices below zero count from the end (one wrap by the node count), as array indexing does.
-/
import proofs.«115206_j31198642438218_1_alg».proof.Proof.Gen.ReferenceIdeal

noncomputable section

namespace Cert.Spec

open Idealize.ShloMosaic Cert.ReferenceIdeal Cert.ReferenceIdeal.Facts₀

variable {F : FTy → Type} [FloatOps F]

/-- An array of shape `S` and element type `e`. -/
abbrev Arr (F : FTy → Type) (S : Shape) (e : EltTy) : Type := (⟨S, e⟩ : BufTy).Contents (Elt F)

/-- The edges' sources: row 0 of the edge list, then every node once (the self-loops). -/
def sources (ei : Arr F S2x3200000 .i32) : Arr F S3300000 .i32 :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- The edges' destinations: row 1 of the edge list, then every node once. -/
def dests (ei : Arr F S2x3200000 .i32) : Arr F S3300000 .i32 :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- A vector of node indices as a column of start indices. -/
def column (v : Arr F S3300000 .i32) : Arr F S3300000x1 .i32 :=
  broadcastInDim S3300000x1 ![0] bcast_S3300000_S3300000x1_0 v

/-- The same with a negative index wrapped once by the node count. -/
def wrapped (v : Arr F S3300000 .i32) : Arr F S3300000x1 .i32 :=
  broadcastInDim S3300000x1 ![0] bcast_S3300000_S3300000x1_0 (select (cmpi .slt v (broadcastInDim S3300000 ![] bcast_S_S3300000 (constantI S_ 32 0#32))) (addi v (broadcastInDim S3300000 ![] bcast_S_S3300000 (constantI S_ 32 100000#32))) v)

/-- `deg^(-1/2)` per node: ones scattered onto the destinations, then the reciprocal square root. -/
def invSqrtDeg (d : Arr F S3300000 .i32) : Arr F S100000 .f32 :=
  Host.rsqrt (Host.scatterAdd scatter_S100000_S3300000x1_S3300000_n_0_0_1 (broadcastInDim S100000 ![] bcast_S_S100000 (constant S_ .f32 0x00000000#32)) (column d) (broadcastInDim S3300000 ![] bcast_S_S3300000 (constant S_ .f32 0x3F800000#32)))

/-- The edge weights `deg(src)^(-1/2) * deg(dst)^(-1/2)`. -/
def edgeNorm (s d : Arr F S3300000 .i32) : Arr F S3300000 .f32 :=
  mulf (Host.gather gather_S100000_S3300000x1_S3300000_n_0_n_n_0_1_1 (invSqrtDeg d) (wrapped s)) (Host.gather gather_S100000_S3300000x1_S3300000_n_0_n_n_0_1_1 (invSqrtDeg d) (wrapped d))

/-- One aggregation of 64-wide features: each edge carries its source's row times its weight to its destination. -/
def aggregate64 (s d : Arr F S3300000 .i32) (n : Arr F S3300000 .f32) (h : Arr F S100000x64 .f32) : Arr F S100000x64 .f32 :=
  Host.scatterAdd scatter_S100000x64_S3300000x1_S3300000x64_1_0_0_1 (broadcastInDim S100000x64 ![] bcast_S_S100000x64 (constant S_ .f32 0x00000000#32)) (column d) (mulf (Host.gather gather_S100000x64_S3300000x1_S3300000x64_1_0_n_n_0_1_164 h (wrapped s)) (broadcastInDim S3300000x64 ![0, 1] bcast_S3300000x1_S3300000x64_0_1 (broadcastInDim S3300000x1 ![0] bcast_S3300000_S3300000x1_0 n)))

/-- The same for 32-wide features. -/
def aggregate32 (s d : Arr F S3300000 .i32) (n : Arr F S3300000 .f32) (h : Arr F S100000x32 .f32) : Arr F S100000x32 .f32 :=
  Host.scatterAdd scatter_S100000x32_S3300000x1_S3300000x32_1_0_0_1 (broadcastInDim S100000x32 ![] bcast_S_S100000x32 (constant S_ .f32 0x00000000#32)) (column d) (mulf (Host.gather gather_S100000x32_S3300000x1_S3300000x32_1_0_n_n_0_1_132 h (wrapped s)) (broadcastInDim S3300000x32 ![0, 1] bcast_S3300000x1_S3300000x32_0_1 (broadcastInDim S3300000x1 ![0] bcast_S3300000_S3300000x1_0 n)))

/-- The rows of `z` at the first node of every pair (row 0 of the pair list, wrapped). -/
def pickFirst (tg : Arr F S2x8192 .i32) (z : Arr F S100000x32 .f32) : Arr F S8192x32 .f32 :=
  Host.gather gather_S100000x32_S8192x1_S8192x32_1_0_n_n_0_1_132 z (broadcastInDim S8192x1 ![0] bcast_S8192_S8192x1_0 (select (cmpi .slt (shapeCast _ (extractStridedSlice S1x8192 ![0, 0] tg slices_S2x8192_S1x8192_0_0) shapeCasts_S1x8192_S8192) (broadcastInDim S8192 ![] bcast_S_S8192 (constantI S_ 32 0#32))) (addi (shapeCast _ (extractStridedSlice S1x8192 ![0, 0] tg slices_S2x8192_S1x8192_0_0) shapeCasts_S1x8192_S8192) (broadcastInDim S8192 ![] bcast_S_S8192 (constantI S_ 32 100000#32))) (shapeCast _ (extractStridedSlice S1x8192 ![0, 0] tg slices_S2x8192_S1x8192_0_0) shapeCasts_S1x8192_S8192)))

/-- The rows of `z` at the second node of every pair. -/
def pickSecond (tg : Arr F S2x8192 .i32) (z : Arr F S100000x32 .f32) : Arr F S8192x32 .f32 :=
  Host.gather gather_S100000x32_S8192x1_S8192x32_1_0_n_n_0_1_132 z (broadcastInDim S8192x1 ![0] bcast_S8192_S8192x1_0 (select (cmpi .slt (shapeCast _ (extractStridedSlice S1x8192 ![1, 0] tg slices_S2x8192_S1x8192_1_0) shapeCasts_S1x8192_S8192) (broadcastInDim S8192 ![] bcast_S_S8192 (constantI S_ 32 0#32))) (addi (shapeCast _ (extractStridedSlice S1x8192 ![1, 0] tg slices_S2x8192_S1x8192_1_0) shapeCasts_S1x8192_S8192) (broadcastInDim S8192 ![] bcast_S_S8192 (constantI S_ 32 100000#32))) (shapeCast _ (extractStridedSlice S1x8192 ![1, 0] tg slices_S2x8192_S1x8192_1_0) shapeCasts_S1x8192_S8192)))

/-- The first layer's product `x W1`. -/
def layer1 (x : Arr F S100000x18 .f32) (w1 : Arr F S18x64 .f32) : Arr F S100000x64 .f32 :=
  Host.dotGeneral dot_S100000x18_S18x64_S100000x64_1_0_0_1_n_n none x w1

/-- `relu(a + b1) W2`, the bias given as a row `[1, 64]`. -/
def layer2 (a : Arr F S100000x64 .f32) (b1row : Arr F S1x64 .f32) (w2 : Arr F S64x32 .f32) : Arr F S100000x32 .f32 :=
  Host.dotGeneral dot_S100000x64_S64x32_S100000x32_1_0_0_1_n_n none (maximumf (addf a (broadcastInDim S100000x64 ![0, 1] bcast_S1x64_S100000x64_0_1 b1row)) (broadcastInDim S100000x64 ![] bcast_S_S100000x64 (constant S_ .f32 0x00000000#32))) w2

/-- `a + b2`, the bias given as a row `[1, 32]`. -/
def addBias (a : Arr F S100000x32 .f32) (b2row : Arr F S1x32 .f32) : Arr F S100000x32 .f32 :=
  addf a (broadcastInDim S100000x32 ![0, 1] bcast_S1x32_S100000x32_0_1 b2row)

/-- The head: `(za * zb) Wo + bo`, the bias given as `[1, 1]`. -/
def head (za zb : Arr F S8192x32 .f32) (wo : Arr F S32x1 .f32) (bo11 : Arr F S1x1 .f32) : Arr F S8192x1 .f32 :=
  addf (Host.dotGeneral dot_S8192x32_S32x1_S8192x1_1_0_0_1_n_n none (mulf za zb) wo) (broadcastInDim S8192x1 ![0, 1] bcast_S1x1_S8192x1_0_1 bo11)

/-- The node embeddings `z`, the three biases given as rows. -/
def embed (x : Arr F S100000x18 .f32) (ei : Arr F S2x3200000 .i32) (w1 : Arr F S18x64 .f32) (b1row : Arr F S1x64 .f32)
    (w2 : Arr F S64x32 .f32) (b2row : Arr F S1x32 .f32) : Arr F S100000x32 .f32 :=
  addBias (aggregate32 (sources ei) (dests ei) (edgeNorm (sources ei) (dests ei))
    (layer2 (aggregate64 (sources ei) (dests ei) (edgeNorm (sources ei) (dests ei)) (layer1 x w1)) b1row w2)) b2row

/-- The whole network, the three biases given as rows. -/
def network (x : Arr F S100000x18 .f32) (ei : Arr F S2x3200000 .i32) (tg : Arr F S2x8192 .i32) (w1 : Arr F S18x64 .f32)
    (b1row : Arr F S1x64 .f32) (w2 : Arr F S64x32 .f32) (b2row : Arr F S1x32 .f32) (wo : Arr F S32x1 .f32)
    (bo11 : Arr F S1x1 .f32) : Arr F S8192x1 .f32 :=
  head (pickFirst tg (embed x ei w1 b1row w2 b2row)) (pickSecond tg (embed x ei w1 b1row w2 b2row)) wo bo11

end Cert.Spec

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.Region0.lean ====
/-
  Region 0 of the program: a row-blocked matrix product. The grid has 20 points; point `t` reads rows
  `5000 t … 5000 t + 4999` of the left operand `x : [100000, 18]`, reads the whole right operand
  `W : [18, 64]`, and writes rows `5000 t … 5000 t + 4999` of the result `[100000, 64]`: the product of
  the two loaded blocks into a zero accumulator, the operands first narrowed to the 16-bit type, which at the
  ideal values changes nothing. Entry `(r, q)` of point `t`'s block is therefore
  `∑ k, x (5000 t + r, k) * W (k, q)`, which is entry `(5000 t + r, q)` of the whole product `x · W`;
  and every row `i` of the result lies in the block of point `i / 5000`. So the array the region leaves is
  the whole product of the arrays it found.
-/
import proofs.«115206_j31198642438218_1_alg».proof.Proof.Gen.KernelIdeal.Frame
import Idealize.ShloMosaic.Lib.Pipeline.Value
import Idealize.ShloMosaic.Lib.ValueIdx
import Idealize.ShloMosaic.PureOps.Ideal.Laws
import proofs.«115206_j31198642438218_1_alg».proof.Proof.LibPlainDot

noncomputable section
open Idealize.ShloMosaic Idealize.ShloMosaic.TcCoe Idealize.SL.Sem
open Idealize.ShloMosaic.Pipeline (Dat)

namespace Cert.KernelIdeal.Hand
open Cert.KernelIdeal Cert.KernelIdeal.Gen

variable (V : (c : Dev nD) → (b : Ref sig .tc) → Buf (Elt Ideal) ((c : Thread nD τ).loc b))

open Idealize.ShloMosaic.ValueIdx

/-- The origin of a whole-block access, as a constant function. -/
theorem region0_origin : (![0, 0] : Fin 2 → Nat) = fun _ => 0 := funext fun a => by fin_cases a <;> rfl

/-- The body's result at entry `(r, q)` of its block: the row `r` of the loaded left block against the column `q`
    of the loaded right block. The narrowing casts are the identity at the ideal values, and the accumulator is zero. -/
theorem region0_payload_apply (x : FVec Ideal S5000x18 .f32) (w : FVec Ideal S18x64 .f32) (r : Fin 5000) (q : Fin 64) :
    k0_pay1 (F := Ideal) x w (ix2 r q) = ∑ k : Fin 18, x (ix2 r k) * w (ix2 k q) := by
  unfold k0_pay1
  show matmul dot_S5000x18_S18x64_S5000x64_1_0_0_1_n_n none (truncf .bf16 x bitsLt_bf16_f32) (truncf .bf16 w bitsLt_bf16_f32) (constant S5000x64 .f32 0x00000000#32) (ix2 r q) = _
  rw [Cert.PlainDot.matmul_zero_apply (M := 5000) (K := 18) (N := 64) dot_S5000x18_S18x64_S5000x64_1_0_0_1_n_n rfl none]
  rfl

/-- The block indices at point `t`, decided over the grid: the left operand's and the result's row block is `t`,
    their column block `0`; the right operand's block is always `(0, 0)`. -/
theorem region0_index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid has 20 points. -/
theorem region0_points : cfg0.N = 20 := by decide

/-- What point `t` writes back is block `t` of the whole product: entry `(r, q)` of the block is the sum over `k` of
    `x (5000 t + r, k) * W (k, q)`, each loaded block read where its rectangle sits in its array (block index times
    block size plus the coordinate inside the block), and that sum is the product's entry `(5000 t + r, q)`. -/
theorem region0_flushed (c : Dev nD)
    (d : DotDims S100000x18 S18x64 S100000x64) (hd : d = DotDims.plain 100000 18 64) (t : Fin cfg0.N) :
    (dat0 (F := Ideal) V c).flushed 2 t = ((cfg0.win 2).blk t).view.read (Elt Ideal)
      (Host.dotGeneral (F := Ideal) (φ₁ := .f32) (φ₂ := .f32) d none (V c main_arg0 : FVec Ideal S100000x18 .f32) (V c main_arg3 : FVec Ideal S18x64 .f32)) := by
  show (cfg0.win 2).cut (grid0.coords t) ((dat0 (F := Ideal) V c).after 2 t) = _
  rw [after0_2]
  unfold out0_2
  rw [View.canon_unit_zero region0_origin]
  simp only [View.ld_unit_zero (S := S5000x18) region0_origin, View.ld_unit_zero (S := S18x64) region0_origin]
  obtain ⟨e00, e01, e10, e11, e20, e21⟩ := region0_index_facts t
  have ht : t.val < 20 := lt_of_lt_of_eq t.isLt region0_points
  funext j
  obtain ⟨r, q, rfl⟩ : ∃ (r : Fin 5000) (q : Fin 64), j = ix2 r q := ⟨j 0, j 1, eq_ix2 j⟩
  have hr : r.val < 5000 := r.isLt
  have hrow : t.val * 5000 + r.val < 100000 := by omega
  show k0_pay1 (F := Ideal) (iblk0 V c 0 t) (iblk0 V c 1 t) (ix2 r q) = Host.dotGeneral (F := Ideal) (φ₁ := .f32) (φ₂ := .f32) d none (V c main_arg0 : FVec Ideal S100000x18 .f32) (V c main_arg3 : FVec Ideal S18x64 .f32) (((cfg0.win 2).blk t).view.emb (ix2 r q))
  -- where entry (r, q) of the result's block sits in the result array
  have hemb : ((cfg0.win 2).blk t).view.emb (ix2 r q) = ix2 (n0 := 100000) (n1 := 64) ⟨t.val * 5000 + r.val, hrow⟩ q := by
    funext a; apply Fin.ext
    match a with
    | ⟨0, _⟩ => show win0_2.index t (0 : Fin 2) * 5000 + 1 * r.val = t.val * 5000 + r.val; omega
    | ⟨1, _⟩ => show win0_2.index t (1 : Fin 2) * 64 + 1 * q.val = q.val; omega
  rw [hemb, Cert.PlainDot.dotGeneral_apply (M := 100000) (K := 18) (N := 64) d hd none]
  refine (region0_payload_apply (iblk0 V c 0 t) (iblk0 V c 1 t) r q).trans ?_
  refine Finset.sum_congr rfl fun k _ => ?_
  -- entry (r, k) of the left block is entry (5000 t + r, k) of the left array
  have hx : iblk0 V c 0 t (ix2 r k) = (V c main_arg0 : FVec Ideal S100000x18 .f32) (ix2 (n0 := 100000) (n1 := 18) ⟨t.val * 5000 + r.val, hrow⟩ k) := by
    show (V c main_arg0 : FVec Ideal S100000x18 .f32) (((cfg0.win 0).blk t).view.emb (ix2 r k)) = _
    refine congrArg _ ?_
    funext a; apply Fin.ext
    match a with
    | ⟨0, _⟩ => show win0_0.index t (0 : Fin 2) * 5000 + 1 * r.val = t.val * 5000 + r.val; omega
    | ⟨1, _⟩ => show win0_0.index t (1 : Fin 2) * 18 + 1 * k.val = k.val; omega
  -- the right block is the whole right array
  have hw : iblk0 V c 1 t (ix2 k q) = (V c main_arg3 : FVec Ideal S18x64 .f32) (ix2 k q) := by
    show (V c main_arg3 : FVec Ideal S18x64 .f32) (((cfg0.win 1).blk t).view.emb (ix2 k q)) = _
    refine congrArg _ ?_
    funext a; apply Fin.ext
    match a with
    | ⟨0, _⟩ => show win0_1.index t (0 : Fin 2) * 18 + 1 * k.val = k.val; omega
    | ⟨1, _⟩ => show win0_1.index t (1 : Fin 2) * 64 + 1 * q.val = q.val; omega
  rw [hx, hw]

/-- After region 0 its result array is the whole product of the left and right arrays as the region found them:
    every point writes its block of the product, and row `i` lies in the block of point `i / 5000`, so the blocks
    cover the array. -/
theorem region0_value (c : Dev nD)
    (d : DotDims S100000x18 S18x64 S100000x64) (hd : d = DotDims.plain 100000 18 64) :
    @Eq (FVec Ideal S100000x64 .f32) ((dat0 (F := Ideal) V c).arrAt 2 cfg0.N)
      (Host.dotGeneral (F := Ideal) (φ₁ := .f32) (φ₂ := .f32) d none (V c main_arg0 : FVec Ideal S100000x18 .f32) (V c main_arg3 : FVec Ideal S18x64 .f32)) := by
  refine (dat0 (F := Ideal) V c).arrAt_eq_of_cover 2 _ (fun t _ => region0_flushed V c d hd t) fun i => ?_
  have hi0 : (i 0).val < 100000 := (i 0).isLt
  have hi1 : (i 1).val < 64 := (i 1).isLt
  obtain ⟨t, htv⟩ : ∃ t : Fin cfg0.N, t.val = (i 0).val / 5000 :=
    ⟨⟨(i 0).val / 5000, lt_of_lt_of_eq (by omega : (i 0).val / 5000 < 20) region0_points.symm⟩, rfl⟩
  obtain ⟨-, -, -, -, e20, e21⟩ := region0_index_facts t
  refine ⟨t, flush0_2 t, ?_⟩
  show i ∈ ((View.whole main_v27).slice (win0_2.rect t)).set
  rw [View.set_slice_whole, Rect.mem_set_unit]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

end Cert.KernelIdeal.Hand
end
-- ==== Proof.Region1.lean ====
/-
  Region 1 of the two-layer graph convolution, read as ONE whole-array function.

  The region's grid has 20 points; point `t` takes rows `5000 t … 5000 t + 4999` of the aggregated features
  `[100000, 64]`, the whole bias row `[1, 64]` and the whole weight matrix `[64, 32]`, and leaves in its output
  block the matrix product of `relu (block + bias row)` with the weights (both factors cast to bf16, which is the
  identity at the ideal values), accumulated from zero. Entry `(r, q)` of that block is
  `∑ k, max (x (r, k) + b (0, k)) 0 * w (k, q)`; entry `(R, q)` of the host expression
  `dot_general (maximum (add x (broadcast b)) (broadcast 0)) w` is the same sum at row `R`. Block `t`'s row `r`
  is the array's row `5000 t + r`, the blocks are written back at every point and tile the rows, so the array
  after the region is the host expression of the arrays the region finds.
-/
import proofs.«115206_j31198642438218_1_alg».proof.Proof.Gen.KernelIdeal.Frame
import proofs.«115206_j31198642438218_1_alg».proof.Proof.LibPlainDot
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

set_option maxRecDepth 16384
noncomputable section
open Idealize.ShloMosaic Idealize.ShloMosaic.TcCoe Idealize.SL.Sem
open Idealize.ShloMosaic.Pipeline (Dat)

namespace Cert.KernelIdeal.Hand
open Cert.KernelIdeal Cert.KernelIdeal.Gen

section Entries
open Idealize.ShloMosaic.ValueIdx

/-! ## The block's payload and the host expression, entry by entry -/

/-- Entry `(p, q)` of `relu (x + bias row) · w` for `M` rows `x`: `∑ k, max (x (p, k) + b (0, k)) 0 * w (k, q)`. -/
def region1_reluDot {M : ℕ} (x : FVec Ideal ⟨2, ![M, 64]⟩ .f32) (b : FVec Ideal S1x64 .f32) (w : FVec Ideal S64x32 .f32)
    (p : Fin M) (q : Fin 32) : Ideal .f32 :=
  ∑ k : Fin 64, max (x (ix2 p k) + b (ix2 (0 : Fin 1) k)) (Ideal.ofBits .f32 0x00000000#32) * w (ix2 k q)

/-- Entry `(r, q)` of the payload of a row block `x`, the bias row `b` and the weights `w`. -/
theorem region1_pay_apply (x : FVec Ideal S5000x64 .f32) (b : FVec Ideal S1x64 .f32) (w : FVec Ideal S64x32 .f32)
    (r : Fin 5000) (q : Fin 32) :
    k1_pay1 (F := Ideal) x b w (ix2 r q) = region1_reluDot x b w r q := by
  unfold k1_pay1 region1_reluDot
  rw [Cert.PlainDot.matmul_zero_apply dot_S5000x64_S64x32_S5000x32_1_0_0_1_n_n rfl]
  refine Finset.sum_congr rfl fun k _ => ?_
  rw [truncf_apply, truncf_apply, maximumf_apply, addf_apply, shapeCast_self, shapeCast_self,
    broadcastTo_1b_ab_apply, broadcast_apply]
  rfl

/-- Entry `(R, q)` of the host expression over whole arrays `x`, `b`, `w`: the same sum, at row `R`. -/
theorem region1_host_apply (d : DotDims S100000x64 S64x32 S100000x32) (hd : d = DotDims.plain 100000 64 32)
    (hb : S1x64.BroadcastsInDim S100000x64 (![0, 1] : Fin 2 → Fin S100000x64.rank))
    (hz : S_.BroadcastsInDim S100000x64 (![] : Fin 0 → Fin S100000x64.rank))
    (x : FVec Ideal S100000x64 .f32) (b : FVec Ideal S1x64 .f32) (w : FVec Ideal S64x32 .f32)
    (R : Fin 100000) (q : Fin 32) :
    Host.dotGeneral (F := Ideal) (φ₁ := .f32) (φ₂ := .f32) d none
        (maximumf (φ := .f32) (addf (φ := .f32) x (broadcastInDim (α := Ideal .f32) S100000x64 ![0, 1] hb b))
          (broadcastInDim S100000x64 ![] hz (constant (F := Ideal) S_ .f32 0x00000000#32)))
        w (ix2 R q)
      = region1_reluDot x b w R q := by
  unfold region1_reluDot
  rw [Cert.PlainDot.dotGeneral_apply d hd]
  refine Finset.sum_congr rfl fun k _ => ?_
  rw [maximumf_apply, addf_apply, broadcastInDim_oneRow_apply, broadcastInDim_scalar_apply, constant_apply]

/-! ## Where a block sits in its array -/

theorem region1_zero_offsets : (![0, 0] : Fin 2 → Nat) = fun _ => 0 := funext fun a => by fin_cases a <;> rfl

/-- The index maps over the grid: the row-blocked windows are at block `t` of the rows, the whole-array
    windows at block `0`; every window is at block `0` of the columns. -/
theorem region1_index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `r` of the feature block of point `t` is row `5000 t + r` of the feature array. -/
theorem region1_emb_features (t : Fin cfg1.N) (r : Fin 5000) (k : Fin 64) (R : Fin 100000) (hR : R.val = t.val * 5000 + r.val) :
    ((cfg1.win 0).blk t).view.emb (ix2 r k) = ix2 R k := by
  obtain ⟨e0, e1, -⟩ := region1_index_maps t
  funext a; apply Fin.ext
  match a with
  | ⟨0, _⟩ => show win1_0.index t (0 : Fin 2) * 5000 + 1 * r.val = R.val; omega
  | ⟨1, _⟩ => show win1_0.index t (1 : Fin 2) * 64 + 1 * k.val = k.val; omega

/-- The bias block is the whole bias row. -/
theorem region1_emb_bias (t : Fin cfg1.N) (z : Fin 1) (k : Fin 64) :
    ((cfg1.win 1).blk t).view.emb (ix2 z k) = ix2 z k := by
  obtain ⟨-, -, e0, e1, -⟩ := region1_index_maps t
  funext a; apply Fin.ext
  match a with
  | ⟨0, _⟩ => show win1_1.index t (0 : Fin 2) * 1 + 1 * z.val = z.val; omega
  | ⟨1, _⟩ => show win1_1.index t (1 : Fin 2) * 64 + 1 * k.val = k.val; omega

/-- The weight block is the whole weight matrix. -/
theorem region1_emb_weights (t : Fin cfg1.N) (k : Fin 64) (q : Fin 32) :
    ((cfg1.win 2).blk t).view.emb (ix2 k q) = ix2 k q := by
  obtain ⟨-, -, -, -, e0, e1, -⟩ := region1_index_maps t
  funext a; apply Fin.ext
  match a with
  | ⟨0, _⟩ => show win1_2.index t (0 : Fin 2) * 64 + 1 * k.val = k.val; omega
  | ⟨1, _⟩ => show win1_2.index t (1 : Fin 2) * 32 + 1 * q.val = q.val; omega

/-- Row `r` of the output block of point `t` is row `5000 t + r` of the output array. -/
theorem region1_emb_output (t : Fin cfg1.N) (r : Fin 5000) (q : Fin 32) (R : Fin 100000) (hR : R.val = t.val * 5000 + r.val) :
    ((cfg1.win 3).blk t).view.emb (ix2 r q) = ix2 R q := by
  obtain ⟨-, -, -, -, -, -, e0, e1⟩ := region1_index_maps t
  funext a; apply Fin.ext
  match a with
  | ⟨0, _⟩ => show win1_3.index t (0 : Fin 2) * 5000 + 1 * r.val = R.val; omega
  | ⟨1, _⟩ => show win1_3.index t (1 : Fin 2) * 32 + 1 * q.val = q.val; omega

/-! ## From the blocks to the array -/

variable (V : (c : Dev nD) → (b : Ref sig .tc) → Buf (Elt Ideal) ((c : Thread nD τ).loc b))

/-- What point `t` writes back is block `t` of any whole-array function `G` whose entry `(R, q)` is
    `region1_reluDot` of the arrays the region finds. -/
theorem region1_flushed_eq (c : Dev nD) (t : Fin cfg1.N) (G : FVec Ideal S100000x32 .f32)
    (hG : ∀ (R : Fin 100000) (q : Fin 32), G (ix2 R q)
      = region1_reluDot (V c main_v40 : FVec Ideal S100000x64 .f32) (V c main_v41 : FVec Ideal S1x64 .f32)
          (V c main_arg5 : FVec Ideal S64x32 .f32) R q) :
    (dat1 (F := Ideal) V c).flushed 3 t = ((cfg1.win 3).blk t).view.read (Elt Ideal) G := by
  show (cfg1.win 3).cut (grid1.coords t) ((dat1 (F := Ideal) V c).after 3 t) = _
  rw [after1_3]
  unfold out1_3
  rw [View.canon_unit_zero region1_zero_offsets]
  simp only [View.ld_unit_zero (S := S5000x64) region1_zero_offsets, View.ld_unit_zero (S := S1x64) region1_zero_offsets,
    View.ld_unit_zero (S := S64x32) region1_zero_offsets]
  funext j
  obtain ⟨r, q, rfl⟩ : ∃ (r : Fin 5000) (q : Fin 32), j = ix2 r q := ⟨j 0, j 1, eq_ix2 j⟩
  have ht : t.val < 20 := t.isLt
  have hr : r.val < 5000 := r.isLt
  let R : Fin 100000 := ⟨t.val * 5000 + r.val, by omega⟩
  show k1_pay1 (F := Ideal) (iblk1 V c 0 t) (iblk1 V c 1 t) (iblk1 V c 2 t) (ix2 r q)
    = G (((cfg1.win 3).blk t).view.emb (ix2 r q))
  rw [region1_emb_output t r q R rfl, hG R q]
  refine (region1_pay_apply (iblk1 V c 0 t) (iblk1 V c 1 t) (iblk1 V c 2 t) r q).trans ?_
  unfold region1_reluDot
  refine Finset.sum_congr rfl fun k _ => ?_
  have h0 : iblk1 V c 0 t (ix2 r k) = (V c main_v40 : FVec Ideal S100000x64 .f32) (ix2 R k) := by
    show V c main_v40 (((cfg1.win 0).blk t).view.emb (ix2 r k)) = _
    rw [region1_emb_features t r k R rfl]
  have h1 : iblk1 V c 1 t (ix2 (0 : Fin 1) k) = (V c main_v41 : FVec Ideal S1x64 .f32) (ix2 (0 : Fin 1) k) := by
    show V c main_v41 (((cfg1.win 1).blk t).view.emb (ix2 (0 : Fin 1) k)) = _
    rw [region1_emb_bias t 0 k]
  have h2 : iblk1 V c 2 t (ix2 k q) = (V c main_arg5 : FVec Ideal S64x32 .f32) (ix2 k q) := by
    show V c main_arg5 (((cfg1.win 2).blk t).view.emb (ix2 k q)) = _
    rw [region1_emb_weights t k q]
  rw [h0, h1, h2]

/-- An index of the output array is in point `t`'s block iff each coordinate is in the block's range. -/
theorem region1_mem_block (t : Fin cfg1.N) (i : S100000x32.Idx) :
    i ∈ ((cfg1.win 3).blk t).view.set ↔ ∀ a : Fin 2, win1_3.index t a * S5000x32.size a ≤ (i a).val
      ∧ (i a).val < win1_3.index t a * S5000x32.size a + S5000x32.size a := by
  show i ∈ ((View.whole main_v42).slice (win1_3.rect t)).set ↔ _
  rw [View.set_slice_whole, Rect.mem_set_unit]
  exact Iff.rfl

/-- Every index of the output array lies in the block of the point its row, divided by 5000, names. -/
theorem region1_covered (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  let t : Fin cfg1.N := ⟨(i 0).val / 5000, by show (i 0).val / 5000 < 20; omega⟩
  obtain ⟨-, -, -, -, -, -, e0, e1⟩ := region1_index_maps t
  have et : t.val = (i 0).val / 5000 := rfl
  refine ⟨t, flush1_3 t, ?_⟩
  rw [region1_mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 32 ≤ (i 1).val ∧ (i 1).val < win1_3.index t (1 : Fin 2) * 32 + 32; omega

end Entries

variable (V : (c : Dev nD) → (b : Ref sig .tc) → Buf (Elt Ideal) ((c : Thread nD τ).loc b))

/-- The output array after region 1 is the host expression of the arrays the region finds. -/
theorem region1_value (c : Dev nD)
    (d : DotDims S100000x64 S64x32 S100000x32) (hd : d = DotDims.plain 100000 64 32)
    (hb : S1x64.BroadcastsInDim S100000x64 (![0, 1] : Fin 2 → Fin S100000x64.rank))
    (hz : S_.BroadcastsInDim S100000x64 (![] : Fin 0 → Fin S100000x64.rank)) :
    @Eq (FVec Ideal S100000x32 .f32) ((dat1 (F := Ideal) V c).arrAt 3 cfg1.N)
      (Host.dotGeneral (F := Ideal) (φ₁ := .f32) (φ₂ := .f32) d none
          (maximumf (φ := .f32) (addf (φ := .f32) (V c main_v40 : FVec Ideal S100000x64 .f32) (broadcastInDim (α := Ideal .f32) S100000x64 ![0, 1] hb (V c main_v41 : FVec Ideal S1x64 .f32)))
            (broadcastInDim S100000x64 ![] hz (constant (F := Ideal) S_ .f32 0x00000000#32)))
          (V c main_arg5 : FVec Ideal S64x32 .f32)) :=
  (dat1 (F := Ideal) V c).arrAt_eq_of_cover 3 _
    (fun t _ => region1_flushed_eq V c t _ (fun R q => region1_host_apply d hd hb hz _ _ _ R q))
    region1_covered

end Cert.KernelIdeal.Hand
end
-- ==== Proof.Region2.lean ====
import proofs.«115206_j31198642438218_1_alg».proof.Proof.Gen.KernelIdeal.Frame
import Idealize.ShloMosaic.Lib.Pipeline.Value
import Idealize.ShloMosaic.Lib.ValueIdx
import Idealize.ShloMosaic.PureOps.Ideal.Laws

/-!
# Region 2 (the bias add): its output array as one function of its input arrays

The region's grid has 20 points. Point `t` reads rows `5000 t … 5000 t + 4999` of the `[100000, 32]` aggregate
and the whole `[1, 32]` bias row, adds the bias row to every row of the block, and writes the block back to the
same rows of the output. The 20 row blocks tile the output, so after the region the output array is, index by
index, the aggregate plus the bias row broadcast along the rows.
-/

set_option maxRecDepth 16384
noncomputable section
open Idealize.ShloMosaic Idealize.ShloMosaic.TcCoe Idealize.SL.Sem
open Idealize.ShloMosaic.Pipeline (Dat)

namespace Cert.KernelIdeal.Hand
open Cert.KernelIdeal Cert.KernelIdeal.Gen

variable (V : (c : Dev nD) → (b : Ref sig .tc) → Buf (Elt Ideal) ((c : Thread nD τ).loc b))

/-- The zero offsets of a whole-block access, as a constant function. -/
theorem region2_zero_offsets : (![0, 0] : Fin 2 → Nat) = fun _ => 0 := funext fun a => by fin_cases a <;> rfl

/-- The three index maps, decided over the 20 grid points: at point `t` the aggregate's block and the output's
    block are row block `t` (column block 0), and the bias row's block is always block (0, 0). -/
theorem region2_index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's payload at row `r`, column `q` of a block: the aggregate block's entry there plus the bias row's
    entry in column `q` (the two shape casts are to the same shape; the broadcast repeats the one row). -/
theorem region2_payload_apply (x0 : Vec Ideal S5000x32 .f32) (x1 : Vec Ideal S1x32 .f32) (r : Fin 5000) (q : Fin 32) :
    k2_pay1 (F := Ideal) x0 x1 (ValueIdx.ix2 r q) = x0 (ValueIdx.ix2 r q) + x1 (ValueIdx.ix2 (0 : Fin 1) q) := by
  unfold k2_pay1
  simp only [shapeCast_self]
  rw [ValueIdx.addf_apply]
  congr 1
  exact broadcastTo_apply _ _ _ _ (fun a => by match a with | ⟨0, _⟩ => rfl | ⟨1, _⟩ => rfl)

/-- What point `t` writes back is block `t` of the whole-array function: the aggregate plus the bias row
    broadcast along the rows. Entry (r, q) of the block is array entry (5000 t + r, q): the aggregate is read at the
    same place by the input block and by the whole-array function, and the broadcast at (5000 t + r, q) is the bias
    row at (0, q), which is where the bias block (always block (0, 0)) reads it. -/
theorem region2_flushed (c : Dev nD)
    (hb : S1x32.BroadcastsInDim S100000x32 (![0, 1] : Fin 2 → Fin S100000x32.rank)) (t : Fin cfg2.N) :
    (dat2 (F := Ideal) V c).flushed 2 t = ((cfg2.win 2).blk t).view.read (Elt Ideal)
      (addf (φ := .f32) (V c main_v55 : FVec Ideal S100000x32 .f32) (broadcastInDim (α := Ideal .f32) S100000x32 ![0, 1] hb (V c main_v56 : FVec Ideal S1x32 .f32))) := by
  show (cfg2.win 2).cut (grid2.coords t) ((dat2 V c).after 2 t) = _
  rw [after2_2]
  unfold out2_2
  rw [View.canon_unit_zero region2_zero_offsets]
  simp only [View.ld_unit_zero (S := S5000x32) region2_zero_offsets, View.ld_unit_zero (S := S1x32) region2_zero_offsets]
  obtain ⟨e0, e1, e2, e3, e4, e5⟩ := region2_index_facts t
  funext j
  show k2_pay1 (F := Ideal) (iblk2 V c 0 t) (iblk2 V c 1 t) j
      = addf (φ := .f32) (V c main_v55 : FVec Ideal S100000x32 .f32) (broadcastInDim (α := Ideal .f32) S100000x32 ![0, 1] hb (V c main_v56 : FVec Ideal S1x32 .f32)) (((cfg2.win 2).blk t).view.emb j)
  obtain ⟨r, q, rfl⟩ : ∃ (r : Fin 5000) (q : Fin 32), j = ValueIdx.ix2 r q := ⟨j 0, j 1, ValueIdx.eq_ix2 j⟩
  refine (region2_payload_apply _ _ r q).trans ?_
  rw [ValueIdx.addf_apply]
  refine congr (congrArg _ ?_) ?_
  · -- the aggregate: the input block and the output block sit at the same rows and columns
    show (V c main_v55 : FVec Ideal S100000x32 .f32) (((cfg2.win 0).blk t).view.emb (ValueIdx.ix2 r q))
      = (V c main_v55 : FVec Ideal S100000x32 .f32) (((cfg2.win 2).blk t).view.emb (ValueIdx.ix2 r q))
    refine congrArg (V c main_v55 : FVec Ideal S100000x32 .f32) (funext fun a => Fin.ext ?_)
    match a with
    | ⟨0, _⟩ => show win2_0.index t (0 : Fin 2) * 5000 + 1 * r.val = win2_2.index t (0 : Fin 2) * 5000 + 1 * r.val; rw [e0, e4]
    | ⟨1, _⟩ => show win2_0.index t (1 : Fin 2) * 32 + 1 * q.val = win2_2.index t (1 : Fin 2) * 32 + 1 * q.val; rw [e1, e5]
  · -- the bias: the broadcast along the rows, read at any row, is the bias row at the same column
    show (V c main_v56 : FVec Ideal S1x32 .f32) (((cfg2.win 1).blk t).view.emb (ValueIdx.ix2 (0 : Fin 1) q))
      = broadcastInDim (α := Ideal .f32) S100000x32 ![0, 1] hb (V c main_v56 : FVec Ideal S1x32 .f32) (((cfg2.win 2).blk t).view.emb (ValueIdx.ix2 r q))
    refine (broadcastInDim_apply _ hb _ _ _ fun a => ?_).symm
    match a with
    | ⟨0, _⟩ => show win2_1.index t (0 : Fin 2) * 1 + 1 * 0 = 0; rw [e2]
    | ⟨1, _⟩ => show win2_1.index t (1 : Fin 2) * 32 + 1 * q.val = win2_2.index t (1 : Fin 2) * 32 + 1 * q.val; rw [e3, e5]

/-- An index of the output array is in point `t`'s block iff each coordinate is in the block's range on its axis. -/
theorem region2_mem_block (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v57).slice (win2_2.rect t)).set ↔ _
  rw [View.set_slice_whole, Rect.mem_set_unit]
  exact Iff.rfl

/-- The 20 row blocks tile the output: index `(x, y)` lies in the block of point `x / 5000`, and every point
    writes its block back. -/
theorem region2_covered (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 20 := N_2
  have ht : (i 0).val / 5000 < cfg2.N := by rw [hN]; omega
  obtain ⟨-, -, -, -, e4, e5⟩ := region2_index_facts ⟨(i 0).val / 5000, ht⟩
  have e4' : win2_2.index ⟨(i 0).val / 5000, ht⟩ (0 : Fin 2) = (i 0).val / 5000 := e4
  refine ⟨⟨(i 0).val / 5000, ht⟩, flush2_2 _, ?_⟩
  rw [region2_mem_block]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    omega
  | ⟨1, _⟩ =>
    show win2_2.index ⟨(i 0).val / 5000, ht⟩ (1 : Fin 2) * 32 ≤ (i 1).val
      ∧ (i 1).val < win2_2.index ⟨(i 0).val / 5000, ht⟩ (1 : Fin 2) * 32 + 32
    omega

/-- After region 2 its output array is the aggregate plus the bias row broadcast along the rows: every point writes
    its block of that function, and the blocks cover the array. -/
theorem region2_value (c : Dev nD)
    (hb : S1x32.BroadcastsInDim S100000x32 (![0, 1] : Fin 2 → Fin S100000x32.rank)) :
    @Eq (FVec Ideal S100000x32 .f32) ((dat2 (F := Ideal) V c).arrAt 2 cfg2.N)
      (addf (φ := .f32) (V c main_v55 : FVec Ideal S100000x32 .f32) (broadcastInDim (α := Ideal .f32) S100000x32 ![0, 1] hb (V c main_v56 : FVec Ideal S1x32 .f32))) :=
  (dat2 (F := Ideal) V c).arrAt_eq_of_cover 2 _ (fun t _ => region2_flushed V c hb t) region2_covered

end Cert.KernelIdeal.Hand
end
-- ==== Proof.Region3.lean ====
/-
  Region 3 (the prediction head). The grid has four points; point `t` holds rows `t * 2048 .. t * 2048 + 2047`
  of the two feature arrays and of the output column, and the whole weight column [32, 1] and bias entry [1, 1].
  A point's output block is, row by row, the elementwise product of the two feature rows contracted with the
  weight column, plus the bias entry (the casts to the narrow float are the identity on ideal values). Each
  output entry depends on its own row only, the four row blocks tile the 8192 rows, and every point writes its
  block back; so after the region the output array is that same expression written once over the whole arrays:
  the product of the feature arrays, times the weight column, plus the bias broadcast down the rows.
-/
import proofs.«115206_j31198642438218_1_alg».proof.Proof.Gen.KernelIdeal.Frame
import proofs.«115206_j31198642438218_1_alg».proof.Proof.LibPlainDot
import Idealize.ShloMosaic.Lib.Pipeline.Value
import Idealize.ShloMosaic.Lib.ValueIdx
import Idealize.ShloMosaic.PureOps.Ideal.Laws

noncomputable section
open Idealize.ShloMosaic Idealize.ShloMosaic.TcCoe Idealize.SL.Sem
open Idealize.ShloMosaic.Pipeline (Dat)

namespace Cert.KernelIdeal.Hand
open Cert.KernelIdeal Cert.KernelIdeal.Gen
open Idealize.ShloMosaic.ValueIdx

/-- The whole-block access offsets are zero on both axes. -/
theorem region3_zero_offsets : (![0, 0] : Fin 2 → Nat) = fun _ => 0 := funext fun a => by fin_cases a <;> rfl

/-- The head's payload at row `p`, column `q` of its block: the row's elementwise product of the two feature
    blocks, contracted with the weight column, plus the one bias entry (the casts to the narrow float are the
    identity on ideal values). -/
theorem region3_payload_apply (x0 x1 : Vec Ideal S2048x32 .f32) (x2 : Vec Ideal S32x1 .f32) (x3 : Vec Ideal S1x1 .f32)
    (p : Fin 2048) (q : Fin 1) :
    k3_pay1 (F := Ideal) x0 x1 x2 x3 (ix2 p q)
      = (∑ k : Fin 32, (x0 (ix2 p k) * x1 (ix2 p k)) * x2 (ix2 k q)) + x3 (ix2 0 0) := by
  unfold k3_pay1
  rw [addf_apply]
  rw [Cert.PlainDot.matmul_zero_apply (M := 2048) (K := 32) (N := 1) dot_S2048x32_S32x1_S2048x1_1_0_0_1_n_n rfl]
  rw [shapeCast_self, shapeCast_self, shapeCast_self]
  rw [broadcastTo_apply (k := ix2 0 0)]
  · rfl
  · intro a; fin_cases a <;> rfl

/-- The same expression over the whole arrays, at row `r`, column `q`. -/
theorem region3_whole_apply (d : DotDims S8192x32 S32x1 S8192x1) (hd : d = DotDims.plain 8192 32 1)
    (hb : S1x1.BroadcastsInDim S8192x1 (![0, 1] : Fin 2 → Fin S8192x1.rank))
    (A B : FVec Ideal S8192x32 .f32) (W : FVec Ideal S32x1 .f32) (b : FVec Ideal S1x1 .f32)
    (r : Fin 8192) (q : Fin 1) :
    addf (φ := .f32) (Host.dotGeneral (F := Ideal) (φ₁ := .f32) (φ₂ := .f32) d none (mulf (φ := .f32) A B) W)
        (broadcastInDim (α := Ideal .f32) S8192x1 ![0, 1] hb b) (ix2 r q)
      = (∑ k : Fin 32, (A (ix2 r k) * B (ix2 r k)) * W (ix2 k q)) + b (ix2 0 0) := by
  rw [addf_apply, Cert.PlainDot.dotGeneral_apply (M := 8192) (K := 32) (N := 1) d hd]
  rw [broadcastInDim_apply (k := ix2 0 0)]
  · rfl
  · intro a; fin_cases a <;> rfl

/-- The printed index maps over the grid: the two feature windows and the output window are at row block `t`,
    column block `0`; the weight and the bias windows stay at block `(0, 0)`. -/
theorem region3_index_maps : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

/-- Row `p` of the first feature window's block at point `t` is row `t * 2048 + p` of its array. -/
theorem region3_blk0 (c : Dev nD) (t : Fin cfg3.N) (p : Fin 2048) (k : Fin 32) (hrow : t.val * 2048 + p.val < 8192) :
    iblk3 (F := Ideal) V c 0 t (ix2 p k) = (V c main_v66 : FVec Ideal S8192x32 .f32) (ix2 ⟨t.val * 2048 + p.val, hrow⟩ k) := by
  obtain ⟨e0, e1, -⟩ := region3_index_maps t
  show (V c main_v66 : FVec Ideal S8192x32 .f32) (((cfg3.win 0).blk t).view.emb (ix2 p k)) = _
  refine congrArg (V c main_v66 : FVec Ideal S8192x32 .f32) ?_
  funext a; apply Fin.ext
  match a with
  | ⟨0, _⟩ => show win3_0.index t (0 : Fin 2) * 2048 + 1 * p.val = t.val * 2048 + p.val; omega
  | ⟨1, _⟩ => show win3_0.index t (1 : Fin 2) * 32 + 1 * k.val = k.val; omega

/-- Row `p` of the second feature window's block at point `t` is row `t * 2048 + p` of its array. -/
theorem region3_blk1 (c : Dev nD) (t : Fin cfg3.N) (p : Fin 2048) (k : Fin 32) (hrow : t.val * 2048 + p.val < 8192) :
    iblk3 (F := Ideal) V c 1 t (ix2 p k) = (V c main_v75 : FVec Ideal S8192x32 .f32) (ix2 ⟨t.val * 2048 + p.val, hrow⟩ k) := by
  obtain ⟨-, -, e2, e3, -⟩ := region3_index_maps t
  show (V c main_v75 : FVec Ideal S8192x32 .f32) (((cfg3.win 1).blk t).view.emb (ix2 p k)) = _
  refine congrArg (V c main_v75 : FVec Ideal S8192x32 .f32) ?_
  funext a; apply Fin.ext
  match a with
  | ⟨0, _⟩ => show win3_1.index t (0 : Fin 2) * 2048 + 1 * p.val = t.val * 2048 + p.val; omega
  | ⟨1, _⟩ => show win3_1.index t (1 : Fin 2) * 32 + 1 * k.val = k.val; omega

/-- The weight window's block is the whole weight array at every point. -/
theorem region3_blk2 (c : Dev nD) (t : Fin cfg3.N) (k : Fin 32) (q : Fin 1) :
    iblk3 (F := Ideal) V c 2 t (ix2 k q) = (V c main_arg7 : FVec Ideal S32x1 .f32) (ix2 k q) := by
  obtain ⟨-, -, -, -, e4, e5, -⟩ := region3_index_maps t
  show (V c main_arg7 : FVec Ideal S32x1 .f32) (((cfg3.win 2).blk t).view.emb (ix2 k q)) = _
  refine congrArg (V c main_arg7 : FVec Ideal S32x1 .f32) ?_
  funext a; apply Fin.ext
  match a with
  | ⟨0, _⟩ => show win3_2.index t (0 : Fin 2) * 32 + 1 * k.val = k.val; omega
  | ⟨1, _⟩ => show win3_2.index t (1 : Fin 2) * 1 + 1 * q.val = q.val; omega

/-- The bias window's block is the whole one-entry bias array at every point. -/
theorem region3_blk3 (c : Dev nD) (t : Fin cfg3.N) (k q : Fin 1) :
    iblk3 (F := Ideal) V c 3 t (ix2 k q) = (V c main_v76 : FVec Ideal S1x1 .f32) (ix2 k q) := by
  obtain ⟨-, -, -, -, -, -, e6, e7, -⟩ := region3_index_maps t
  show (V c main_v76 : FVec Ideal S1x1 .f32) (((cfg3.win 3).blk t).view.emb (ix2 k q)) = _
  refine congrArg (V c main_v76 : FVec Ideal S1x1 .f32) ?_
  funext a; apply Fin.ext
  match a with
  | ⟨0, _⟩ => show win3_3.index t (0 : Fin 2) * 1 + 1 * k.val = k.val; omega
  | ⟨1, _⟩ => show win3_3.index t (1 : Fin 2) * 1 + 1 * q.val = q.val; omega

/-- Row `p` of the output window's block at point `t` sits at row `t * 2048 + p` of the output array. -/
theorem region3_out_emb (t : Fin cfg3.N) (p : Fin 2048) (q : Fin 1) (hrow : t.val * 2048 + p.val < 8192) :
    ((cfg3.win 4).blk t).view.emb (ix2 p q) = (ix2 ⟨t.val * 2048 + p.val, hrow⟩ q : S8192x1.Idx) := by
  obtain ⟨-, -, -, -, -, -, -, -, e8, e9⟩ := region3_index_maps t
  funext a; apply Fin.ext
  match a with
  | ⟨0, _⟩ => show win3_4.index t (0 : Fin 2) * 2048 + 1 * p.val = t.val * 2048 + p.val; omega
  | ⟨1, _⟩ => show win3_4.index t (1 : Fin 2) * 1 + 1 * q.val = q.val; omega

/-- What a point writes back is its block of the whole-array expression. -/
theorem region3_flushed (c : Dev nD)
    (d : DotDims S8192x32 S32x1 S8192x1) (hd : d = DotDims.plain 8192 32 1)
    (hb : S1x1.BroadcastsInDim S8192x1 (![0, 1] : Fin 2 → Fin S8192x1.rank)) (t : Fin cfg3.N) :
    (dat3 (F := Ideal) V c).flushed 4 t = ((cfg3.win 4).blk t).view.read (Elt Ideal)
      (addf (φ := .f32) (Host.dotGeneral (F := Ideal) (φ₁ := .f32) (φ₂ := .f32) d none (mulf (φ := .f32) (V c main_v66 : FVec Ideal S8192x32 .f32) (V c main_v75 : FVec Ideal S8192x32 .f32)) (V c main_arg7 : FVec Ideal S32x1 .f32))
          (broadcastInDim (α := Ideal .f32) S8192x1 ![0, 1] hb (V c main_v76 : FVec Ideal S1x1 .f32))) := by
  show (cfg3.win 4).cut (grid3.coords t) ((dat3 (F := Ideal) V c).after 4 t) = _
  rw [after3_4]
  unfold out3_4
  rw [View.canon_unit_zero region3_zero_offsets]
  simp only [View.ld_unit_zero (S := S2048x32) region3_zero_offsets, View.ld_unit_zero (S := S32x1) region3_zero_offsets,
    View.ld_unit_zero (S := S1x1) region3_zero_offsets]
  funext j
  obtain ⟨p, q, rfl⟩ : ∃ (p : Fin 2048) (q : Fin 1), j = ix2 p q := ⟨j 0, j 1, eq_ix2 j⟩
  have ht : t.val < 4 := t.isLt
  have hp : p.val < 2048 := p.isLt
  have hrow : t.val * 2048 + p.val < 8192 := by omega
  refine (region3_payload_apply _ _ _ _ p q).trans ?_
  simp only [region3_blk0 V c t p _ hrow, region3_blk1 V c t p _ hrow, region3_blk2 V c t, region3_blk3 V c t]
  rw [View.read_apply, cast_eq]
  rw [region3_out_emb t p q hrow]
  exact (region3_whole_apply d hd hb _ _ _ _ _ q).symm

/-- Every row of the output array lies in the block of the point `row / 2048`, and that point writes back. -/
theorem region3_cover (i : S8192x1.Idx) :
    ∃ t : Fin cfg3.N, (cfg3.win 4).flush t = true ∧ i ∈ ((cfg3.win 4).blk t).view.set := by
  have hi0 : (i 0).val < 8192 := (i 0).isLt
  have hi1 : (i 1).val < 1 := (i 1).isLt
  obtain ⟨t, ht⟩ : ∃ t : Fin cfg3.N, t.val = (i 0).val / 2048 :=
    ⟨⟨(i 0).val / 2048, by show (i 0).val / 2048 < 4; omega⟩, rfl⟩
  obtain ⟨-, -, -, -, -, -, -, -, e8, e9⟩ := region3_index_maps t
  refine ⟨t, flush3_4 t, ?_⟩
  show i ∈ ((View.whole main_v77).slice (win3_4.rect t)).set
  rw [View.set_slice_whole, Rect.mem_set_unit]
  intro a
  match a with
  | ⟨0, _⟩ =>
    show win3_4.index t (0 : Fin 2) * 2048 ≤ (i 0).val ∧ (i 0).val < win3_4.index t (0 : Fin 2) * 2048 + 2048
    omega
  | ⟨1, _⟩ =>
    show win3_4.index t (1 : Fin 2) * 1 ≤ (i 1).val ∧ (i 1).val < win3_4.index t (1 : Fin 2) * 1 + 1
    omega

theorem region3_value (c : Dev nD)
    (d : DotDims S8192x32 S32x1 S8192x1) (hd : d = DotDims.plain 8192 32 1)
    (hb : S1x1.BroadcastsInDim S8192x1 (![0, 1] : Fin 2 → Fin S8192x1.rank)) :
    @Eq (FVec Ideal S8192x1 .f32) ((dat3 (F := Ideal) V c).arrAt 4 cfg3.N)
      (addf (φ := .f32) (Host.dotGeneral (F := Ideal) (φ₁ := .f32) (φ₂ := .f32) d none (mulf (φ := .f32) (V c main_v66 : FVec Ideal S8192x32 .f32) (V c main_v75 : FVec Ideal S8192x32 .f32)) (V c main_arg7 : FVec Ideal S32x1 .f32))
          (broadcastInDim (α := Ideal .f32) S8192x1 ![0, 1] hb (V c main_v76 : FVec Ideal S1x1 .f32))) :=
  (dat3 (F := Ideal) V c).arrAt_eq_of_cover 4 _ (fun t _ => region3_flushed V c d hd hb t) region3_cover

end Cert.KernelIdeal.Hand
end
-- ==== Proof.KernelValue.lean ====
/-
  The idealized kernel's result array as the network of the specification.

  @main is four kernel regions among stretches of host operations. The contents of the buffers at each boundary are a
  fold from the launch memory: a host stretch applies its operations, a region leaves each of its output arrays at the
  fold of its write-backs. Walking that fold once, boundary by boundary:
    before region 0   the edge lists (sources, destinations, self-loops appended) and the edge weights;
    region 0          x W1;
    then              the first aggregation, and b1 as a row;
    region 1          relu(. + b1) W2;
    then              the second aggregation, and b2 as a row;
    region 2          . + b2, the node embeddings z;
    then              z's rows at the two nodes of every pair, and bo as [1, 1];
    region 3          (za * zb) Wo + bo.
  Every stretch's result is the specification's stage of the same name applied to what the earlier boundaries hold, by
  reading the stretch's operations one after the other; every region's result is its whole-array value (the region
  modules); a buffer nobody writes in between keeps its contents.
-/
import proofs.«115206_j31198642438218_1_alg».proof.Proof.Gen.KernelIdeal.Frame
import proofs.«115206_j31198642438218_1_alg».proof.Proof.Spec
import proofs.«115206_j31198642438218_1_alg».proof.Proof.Region0
import proofs.«115206_j31198642438218_1_alg».proof.Proof.Region1
import proofs.«115206_j31198642438218_1_alg».proof.Proof.Region2
import proofs.«115206_j31198642438218_1_alg».proof.Proof.Region3
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.StableHlo

variable (m : (ℓ : Loc nD τ sig) → Buf (Elt Ideal) ℓ) (ρ : Dev nD → PrngReg)

/-! ## Names for the arguments' launch contents and for the specification's stages at them -/

/-- The node features. -/
abbrev argX (c : Dev nD) : Cert.Spec.Arr Ideal Cert.ReferenceIdeal.S100000x18 .f32 := m ((c : Thread nD τ).loc main_arg0)
/-- The edge list. -/
abbrev argEi (c : Dev nD) : Cert.Spec.Arr Ideal Cert.ReferenceIdeal.S2x3200000 .i32 := m ((c : Thread nD τ).loc main_arg1)
/-- The node pairs. -/
abbrev argTg (c : Dev nD) : Cert.Spec.Arr Ideal Cert.ReferenceIdeal.S2x8192 .i32 := m ((c : Thread nD τ).loc main_arg2)
abbrev argW1 (c : Dev nD) : Cert.Spec.Arr Ideal Cert.ReferenceIdeal.S18x64 .f32 := m ((c : Thread nD τ).loc main_arg3)
abbrev argB1 (c : Dev nD) : Cert.Spec.Arr Ideal Cert.ReferenceIdeal.S64 .f32 := m ((c : Thread nD τ).loc main_arg4)
abbrev argW2 (c : Dev nD) : Cert.Spec.Arr Ideal Cert.ReferenceIdeal.S64x32 .f32 := m ((c : Thread nD τ).loc main_arg5)
abbrev argB2 (c : Dev nD) : Cert.Spec.Arr Ideal Cert.ReferenceIdeal.S32 .f32 := m ((c : Thread nD τ).loc main_arg6)
abbrev argWo (c : Dev nD) : Cert.Spec.Arr Ideal Cert.ReferenceIdeal.S32x1 .f32 := m ((c : Thread nD τ).loc main_arg7)
abbrev argBo (c : Dev nD) : Cert.Spec.Arr Ideal Cert.ReferenceIdeal.S1 .f32 := m ((c : Thread nD τ).loc main_arg8)

/-- The edges' sources and destinations, and their weights. -/
abbrev srcs (c : Dev nD) := Cert.Spec.sources (F := Ideal) (argEi m c)
abbrev dsts (c : Dev nD) := Cert.Spec.dests (F := Ideal) (argEi m c)
abbrev nrms (c : Dev nD) := Cert.Spec.edgeNorm (F := Ideal) (srcs m c) (dsts m c)
/-- The biases as rows, by a reshape. -/
abbrev b1row (c : Dev nD) := shapeCast Cert.ReferenceIdeal.S1x64 (argB1 m c) shapeCasts_S64_S1x64
abbrev b2row (c : Dev nD) := shapeCast Cert.ReferenceIdeal.S1x32 (argB2 m c) shapeCasts_S32_S1x32
abbrev borow (c : Dev nD) := shapeCast Cert.ReferenceIdeal.S1x1 (argBo m c) shapeCasts_S1_S1x1
/-- The layers' values. -/
abbrev hid1 (c : Dev nD) := Cert.Spec.layer1 (F := Ideal) (argX m c) (argW1 m c)
abbrev agg1 (c : Dev nD) := Cert.Spec.aggregate64 (F := Ideal) (srcs m c) (dsts m c) (nrms m c) (hid1 m c)
abbrev hid2 (c : Dev nD) := Cert.Spec.layer2 (F := Ideal) (agg1 m c) (b1row m c) (argW2 m c)
abbrev agg2 (c : Dev nD) := Cert.Spec.aggregate32 (F := Ideal) (srcs m c) (dsts m c) (nrms m c) (hid2 m c)
abbrev emb (c : Dev nD) := Cert.Spec.addBias (F := Ideal) (agg2 m c) (b2row m c)

/-! ## Before region 0: the edge lists and weights; the arguments untouched -/

theorem V1_arg0 (c : Dev nD) : V1 m ρ c main_arg0 = argX m c := by
  show StableHlo.after hostOps0 (W0 m ρ c) _ = _
  after_results_simp
theorem V1_arg3 (c : Dev nD) : V1 m ρ c main_arg3 = argW1 m c := by
  show StableHlo.after hostOps0 (W0 m ρ c) _ = _
  after_results_simp
theorem W1_arg2 (c : Dev nD) : W1 m ρ c (Proc.devRef .tc main_arg2) = argTg m c := by
  show StableHlo.after hostOps0 (W0 m ρ c) _ = _
  after_results_simp
theorem W1_arg4 (c : Dev nD) : W1 m ρ c (Proc.devRef .tc main_arg4) = argB1 m c := by
  show StableHlo.after hostOps0 (W0 m ρ c) _ = _
  after_results_simp
theorem W1_arg5 (c : Dev nD) : W1 m ρ c (Proc.devRef .tc main_arg5) = argW2 m c := by
  show StableHlo.after hostOps0 (W0 m ρ c) _ = _
  after_results_simp
theorem W1_arg6 (c : Dev nD) : W1 m ρ c (Proc.devRef .tc main_arg6) = argB2 m c := by
  show StableHlo.after hostOps0 (W0 m ρ c) _ = _
  after_results_simp
theorem W1_arg7 (c : Dev nD) : W1 m ρ c (Proc.devRef .tc main_arg7) = argWo m c := by
  show StableHlo.after hostOps0 (W0 m ρ c) _ = _
  after_results_simp
theorem W1_arg8 (c : Dev nD) : W1 m ρ c (Proc.devRef .tc main_arg8) = argBo m c := by
  show StableHlo.after hostOps0 (W0 m ρ c) _ = _
  after_results_simp
theorem W1_v3 (c : Dev nD) : W1 m ρ c (Proc.devRef .tc main_v3) = srcs m c := by
  show StableHlo.after hostOps0 (W0 m ρ c) _ = _
  after_results_simp
  rfl
theorem W1_v6 (c : Dev nD) : W1 m ρ c (Proc.devRef .tc main_v6) = dsts m c := by
  show StableHlo.after hostOps0 (W0 m ρ c) _ = _
  after_results_simp
  rfl
theorem W1_v26 (c : Dev nD) : W1 m ρ c (Proc.devRef .tc main_v26) = nrms m c := by
  show StableHlo.after hostOps0 (W0 m ρ c) _ = _
  after_results_simp
  rfl

/-! ## Region 0: the first product; everything else as before it -/

theorem W2_v27 (c : Dev nD) : W2 m ρ c (Proc.devRef .tc main_v27) = hid1 m c := by
  refine (W2_arr m ρ c 2).trans ((region0_value (V1 m ρ) c Cert.ReferenceIdeal.dot_S100000x18_S18x64_S100000x64_1_0_0_1_n_n rfl).trans ?_)
  rw [V1_arg0, V1_arg3]
  rfl
theorem W2_v3 (c : Dev nD) : W2 m ρ c (Proc.devRef .tc main_v3) = srcs m c := by
  rw [W2_of_ne m ρ c main_v3 (by decide), W1_v3]
theorem W2_v6 (c : Dev nD) : W2 m ρ c (Proc.devRef .tc main_v6) = dsts m c := by
  rw [W2_of_ne m ρ c main_v6 (by decide), W1_v6]
theorem W2_v26 (c : Dev nD) : W2 m ρ c (Proc.devRef .tc main_v26) = nrms m c := by
  rw [W2_of_ne m ρ c main_v26 (by decide), W1_v26]
theorem W2_arg2 (c : Dev nD) : W2 m ρ c (Proc.devRef .tc main_arg2) = argTg m c := by
  rw [W2_of_ne m ρ c main_arg2 (by decide), W1_arg2]
theorem W2_arg4 (c : Dev nD) : W2 m ρ c (Proc.devRef .tc main_arg4) = argB1 m c := by
  rw [W2_of_ne m ρ c main_arg4 (by decide), W1_arg4]
theorem W2_arg5 (c : Dev nD) : W2 m ρ c (Proc.devRef .tc main_arg5) = argW2 m c := by
  rw [W2_of_ne m ρ c main_arg5 (by decide), W1_arg5]
theorem W2_arg6 (c : Dev nD) : W2 m ρ c (Proc.devRef .tc main_arg6) = argB2 m c := by
  rw [W2_of_ne m ρ c main_arg6 (by decide), W1_arg6]
theorem W2_arg7 (c : Dev nD) : W2 m ρ c (Proc.devRef .tc main_arg7) = argWo m c := by
  rw [W2_of_ne m ρ c main_arg7 (by decide), W1_arg7]
theorem W2_arg8 (c : Dev nD) : W2 m ρ c (Proc.devRef .tc main_arg8) = argBo m c := by
  rw [W2_of_ne m ρ c main_arg8 (by decide), W1_arg8]

/-! ## Between regions 0 and 1: the first aggregation, b1 as a row -/

theorem V3_v40 (c : Dev nD) : V3 m ρ c main_v40 = agg1 m c := by
  show StableHlo.after hostOps1 (W2 m ρ c) _ = _
  after_results_simp
  rw [W2_v27, W2_v3, W2_v6, W2_v26]
  rfl
theorem V3_v41 (c : Dev nD) : V3 m ρ c main_v41 = b1row m c := by
  show StableHlo.after hostOps1 (W2 m ρ c) _ = _
  after_results_simp
  rw [W2_arg4]
  rfl
theorem V3_arg5 (c : Dev nD) : V3 m ρ c main_arg5 = argW2 m c := by
  show StableHlo.after hostOps1 (W2 m ρ c) _ = _
  after_results_simp
  rw [W2_arg5]
theorem W3_v3 (c : Dev nD) : W3 m ρ c (Proc.devRef .tc main_v3) = srcs m c := by
  show StableHlo.after hostOps1 (W2 m ρ c) _ = _
  after_results_simp
  rw [W2_v3]
theorem W3_v6 (c : Dev nD) : W3 m ρ c (Proc.devRef .tc main_v6) = dsts m c := by
  show StableHlo.after hostOps1 (W2 m ρ c) _ = _
  after_results_simp
  rw [W2_v6]
theorem W3_v26 (c : Dev nD) : W3 m ρ c (Proc.devRef .tc main_v26) = nrms m c := by
  show StableHlo.after hostOps1 (W2 m ρ c) _ = _
  after_results_simp
  rw [W2_v26]
theorem W3_arg2 (c : Dev nD) : W3 m ρ c (Proc.devRef .tc main_arg2) = argTg m c := by
  show StableHlo.after hostOps1 (W2 m ρ c) _ = _
  after_results_simp
  rw [W2_arg2]
theorem W3_arg6 (c : Dev nD) : W3 m ρ c (Proc.devRef .tc main_arg6) = argB2 m c := by
  show StableHlo.after hostOps1 (W2 m ρ c) _ = _
  after_results_simp
  rw [W2_arg6]
theorem W3_arg7 (c : Dev nD) : W3 m ρ c (Proc.devRef .tc main_arg7) = argWo m c := by
  show StableHlo.after hostOps1 (W2 m ρ c) _ = _
  after_results_simp
  rw [W2_arg7]
theorem W3_arg8 (c : Dev nD) : W3 m ρ c (Proc.devRef .tc main_arg8) = argBo m c := by
  show StableHlo.after hostOps1 (W2 m ρ c) _ = _
  after_results_simp
  rw [W2_arg8]

/-! ## Region 1: bias, relu and the second product -/

theorem W4_v42 (c : Dev nD) : W4 m ρ c (Proc.devRef .tc main_v42) = hid2 m c := by
  refine (W4_arr m ρ c 3).trans ((region1_value (V3 m ρ) c Cert.ReferenceIdeal.dot_S100000x64_S64x32_S100000x32_1_0_0_1_n_n rfl
    Cert.ReferenceIdeal.Gen.bcast_S1x64_S100000x64_0_1 Cert.ReferenceIdeal.Gen.bcast_S_S100000x64).trans ?_)
  rw [V3_v40, V3_v41, V3_arg5]
  rfl
theorem W4_v3 (c : Dev nD) : W4 m ρ c (Proc.devRef .tc main_v3) = srcs m c := by
  rw [W4_of_ne m ρ c main_v3 (by decide), W3_v3]
theorem W4_v6 (c : Dev nD) : W4 m ρ c (Proc.devRef .tc main_v6) = dsts m c := by
  rw [W4_of_ne m ρ c main_v6 (by decide), W3_v6]
theorem W4_v26 (c : Dev nD) : W4 m ρ c (Proc.devRef .tc main_v26) = nrms m c := by
  rw [W4_of_ne m ρ c main_v26 (by decide), W3_v26]
theorem W4_arg2 (c : Dev nD) : W4 m ρ c (Proc.devRef .tc main_arg2) = argTg m c := by
  rw [W4_of_ne m ρ c main_arg2 (by decide), W3_arg2]
theorem W4_arg6 (c : Dev nD) : W4 m ρ c (Proc.devRef .tc main_arg6) = argB2 m c := by
  rw [W4_of_ne m ρ c main_arg6 (by decide), W3_arg6]
theorem W4_arg7 (c : Dev nD) : W4 m ρ c (Proc.devRef .tc main_arg7) = argWo m c := by
  rw [W4_of_ne m ρ c main_arg7 (by decide), W3_arg7]
theorem W4_arg8 (c : Dev nD) : W4 m ρ c (Proc.devRef .tc main_arg8) = argBo m c := by
  rw [W4_of_ne m ρ c main_arg8 (by decide), W3_arg8]

/-! ## Between regions 1 and 2: the second aggregation, b2 as a row -/

theorem V5_v55 (c : Dev nD) : V5 m ρ c main_v55 = agg2 m c := by
  show StableHlo.after hostOps2 (W4 m ρ c) _ = _
  after_results_simp
  rw [W4_v42, W4_v3, W4_v6, W4_v26]
  rfl
theorem V5_v56 (c : Dev nD) : V5 m ρ c main_v56 = b2row m c := by
  show StableHlo.after hostOps2 (W4 m ρ c) _ = _
  after_results_simp
  rw [W4_arg6]
  rfl
theorem W5_arg2 (c : Dev nD) : W5 m ρ c (Proc.devRef .tc main_arg2) = argTg m c := by
  show StableHlo.after hostOps2 (W4 m ρ c) _ = _
  after_results_simp
  rw [W4_arg2]
theorem W5_arg7 (c : Dev nD) : W5 m ρ c (Proc.devRef .tc main_arg7) = argWo m c := by
  show StableHlo.after hostOps2 (W4 m ρ c) _ = _
  after_results_simp
  rw [W4_arg7]
theorem W5_arg8 (c : Dev nD) : W5 m ρ c (Proc.devRef .tc main_arg8) = argBo m c := by
  show StableHlo.after hostOps2 (W4 m ρ c) _ = _
  after_results_simp
  rw [W4_arg8]

/-! ## Region 2: the second bias -/

theorem W6_v57 (c : Dev nD) : W6 m ρ c (Proc.devRef .tc main_v57) = emb m c := by
  refine (W6_arr m ρ c 2).trans ((region2_value (V5 m ρ) c Cert.ReferenceIdeal.Gen.bcast_S1x32_S100000x32_0_1).trans ?_)
  rw [V5_v55, V5_v56]
  rfl
theorem W6_arg2 (c : Dev nD) : W6 m ρ c (Proc.devRef .tc main_arg2) = argTg m c := by
  rw [W6_of_ne m ρ c main_arg2 (by decide), W5_arg2]
theorem W6_arg7 (c : Dev nD) : W6 m ρ c (Proc.devRef .tc main_arg7) = argWo m c := by
  rw [W6_of_ne m ρ c main_arg7 (by decide), W5_arg7]
theorem W6_arg8 (c : Dev nD) : W6 m ρ c (Proc.devRef .tc main_arg8) = argBo m c := by
  rw [W6_of_ne m ρ c main_arg8 (by decide), W5_arg8]

/-! ## Between regions 2 and 3: the pairs' rows, bo as [1, 1] -/

theorem V7_v66 (c : Dev nD) : V7 m ρ c main_v66 = Cert.Spec.pickFirst (F := Ideal) (argTg m c) (emb m c) := by
  show StableHlo.after hostOps3 (W6 m ρ c) _ = _
  after_results_simp
  rw [W6_v57, W6_arg2]
  rfl
theorem V7_v75 (c : Dev nD) : V7 m ρ c main_v75 = Cert.Spec.pickSecond (F := Ideal) (argTg m c) (emb m c) := by
  show StableHlo.after hostOps3 (W6 m ρ c) _ = _
  after_results_simp
  rw [W6_v57, W6_arg2]
  rfl
theorem V7_v76 (c : Dev nD) : V7 m ρ c main_v76 = borow m c := by
  show StableHlo.after hostOps3 (W6 m ρ c) _ = _
  after_results_simp
  rw [W6_arg8]
  rfl
theorem V7_arg7 (c : Dev nD) : V7 m ρ c main_arg7 = argWo m c := by
  show StableHlo.after hostOps3 (W6 m ρ c) _ = _
  after_results_simp
  rw [W6_arg7]

/-! ## Region 3: the head -/

/-- The result array after the run is the network of the specification at the launch contents of the arguments, each
    bias reshaped to a row. -/
theorem kernel_value (c : Dev nD) : W8 m ρ c (Proc.devRef .tc main_v77)
    = Cert.Spec.network (F := Ideal) (argX m c) (argEi m c) (argTg m c) (argW1 m c) (b1row m c) (argW2 m c) (b2row m c)
        (argWo m c) (borow m c) := by
  refine (W8_arr m ρ c 4).trans ((region3_value (V7 m ρ) c Cert.ReferenceIdeal.dot_S8192x32_S32x1_S8192x1_1_0_0_1_n_n rfl
    Cert.ReferenceIdeal.Gen.bcast_S1x1_S8192x1_0_1).trans ?_)
  rw [V7_v66, V7_v75, V7_arg7, V7_v76]
  rfl

end Cert.KernelIdeal.Hand

end
-- ==== Proof.RefRun.lean ====
/-
  The reference's run, read back: every weakly fair execution of the reference's straight line of host operations
  terminates with the result array at the network's function of the arguments (the composed term of its operations,
  folded into the stages of the specification), and the arguments as launched.
-/
import proofs.«115206_j31198642438218_1_alg».proof.Defs
import proofs.«115206_j31198642438218_1_alg».proof.Proof.Gen.ReferenceIdeal.Run
import proofs.«115206_j31198642438218_1_alg».proof.Proof.Spec

noncomputable section

namespace Cert.ReferenceIdeal.Hand

open Idealize.ShloMosaic Idealize.ShloMosaic.TcCoe Idealize.SL.Sem
open Cert.ReferenceIdeal Cert.ReferenceIdeal.Gen

variable {F : FTy → Type} [FloatOps F]

set_option maxRecDepth 8192 in
/-- The composed term of the reference's operations IS the network of the specification, each bias first made a row
    (`b[None, :]`). -/
theorem result_eq (m : (ℓ : Loc nD τ sig) → Buf (Elt F) ℓ) (c : Dev nD) :
    Cert.ReferenceIdeal.Value.res_main_v84 m c
      = Cert.Spec.network (F := F) (m ((c.tc : Thread nD τ).loc main_arg0)) (m ((c.tc : Thread nD τ).loc main_arg1))
          (m ((c.tc : Thread nD τ).loc main_arg2)) (m ((c.tc : Thread nD τ).loc main_arg3))
          (broadcastInDim S1x64 ![1] bcast_S64_S1x64_1 (m ((c.tc : Thread nD τ).loc main_arg4)))
          (m ((c.tc : Thread nD τ).loc main_arg5))
          (broadcastInDim S1x32 ![1] bcast_S32_S1x32_1 (m ((c.tc : Thread nD τ).loc main_arg6)))
          (m ((c.tc : Thread nD τ).loc main_arg7))
          (broadcastInDim S1x1 ![1] bcast_S1_S1x1_1 (m ((c.tc : Thread nD τ).loc main_arg8))) := by
  unfold Cert.ReferenceIdeal.Value.res_main_v84 Cert.Spec.network Cert.Spec.head Cert.Spec.pickFirst Cert.Spec.pickSecond
    Cert.Spec.embed Cert.Spec.addBias Cert.Spec.aggregate32 Cert.Spec.layer2 Cert.Spec.aggregate64 Cert.Spec.layer1
    Cert.Spec.edgeNorm Cert.Spec.invSqrtDeg Cert.Spec.wrapped Cert.Spec.column Cert.Spec.sources Cert.Spec.dests
  rfl

end Cert.ReferenceIdeal.Hand

end
-- ==== Proof.LibBiasRow.lean ====
/-
  A vector `[a]` made a row `[1, a]`: reshaping it and broadcasting it along a new leading axis of extent one are
  the same array — entry `(0, i)` of either is entry `i` of the vector.
-/
import Idealize.ShloMosaic.Lib.ValueLayout
import Idealize.ShloMosaic.Lib.Pipeline.Value

namespace Cert.LibBiasRow

open Idealize.ShloMosaic Idealize.ShloMosaic.ValueIdx

variable {α : Type}

/-- `v.reshape(1, a)` is `v[None, :]`. -/
theorem reshape_eq_broadcast {a : ℕ} (x : (⟨1, ![a]⟩ : Shape).Idx → α)
    (h1 : (⟨1, ![a]⟩ : Shape).ShapeCasts ⟨2, ![1, a]⟩)
    (h2 : (⟨1, ![a]⟩ : Shape).BroadcastsInDim ⟨2, ![1, a]⟩ (![1] : Fin 1 → Fin 2)) :
    shapeCast ⟨2, ![1, a]⟩ x h1 = broadcastInDim ⟨2, ![1, a]⟩ ![1] h2 x := by
  funext j
  obtain ⟨u, i, rfl⟩ : ∃ (u : Fin 1) (i : Fin a), j = ix2 u i := ⟨j 0, j 1, eq_ix2 j⟩
  rw [shapeCast_a_1a_apply]
  symm
  refine broadcastInDim_apply _ h2 x _ (ix1 i) fun ax => ?_
  match ax with
  | ⟨0, _⟩ =>
    show i.val = if a = 1 then 0 else i.val
    split
    · have := i.isLt; omega
    · rfl

end Cert.LibBiasRow
-- ==== Proof.lean ====
/-
  A two-layer graph convolution network with a pair head, its four dense stages run as kernels — x W1; relu(. + b1) W2;
  . + b2; (za * zb) Wo + bo — and the sparse stages between them (degree normalisation, gather by source, scatter-add
  by destination, the pairs' row gathers) as host operations, against the same network written with host operations
  only.

  Over the extended reals the two programs compute ONE function of the nine arguments. The host stages are the same
  operations in both; a kernel region's output array is the whole-array product or sum the reference states, because
  every block is a row block, a row of a product depends on that row of the left operand only, and the blocks tile
  the rows; a product into a zero accumulator is the plain sum of products, and a change of float format is the
  identity; the kernel reshapes each bias to a row where the reference broadcasts it, which is the same row. No
  algebraic law is used that could fail at an infinity, so the precondition is never opened.

  The kernel programs' frames are the generated ones; the reference's frame is its generated run with the result
  dropped; the idealization rewrote no operation.
-/
import proofs.«115206_j31198642438218_1_alg».proof.Defs
import proofs.«115206_j31198642438218_1_alg».proof.Proof.Gen.Kernel
import proofs.«115206_j31198642438218_1_alg».proof.Proof.Gen.Kernel.Skeleton
import proofs.«115206_j31198642438218_1_alg».proof.Proof.Gen.Kernel.Launch
import proofs.«115206_j31198642438218_1_alg».proof.Proof.Gen.Kernel.Points
import proofs.«115206_j31198642438218_1_alg».proof.Proof.Gen.Kernel.Frame
import proofs.«115206_j31198642438218_1_alg».proof.Proof.Gen.KernelIdeal
import proofs.«115206_j31198642438218_1_alg».proof.Proof.Gen.KernelIdeal.Skeleton
import proofs.«115206_j31198642438218_1_alg».proof.Proof.Gen.KernelIdeal.Launch
import proofs.«115206_j31198642438218_1_alg».proof.Proof.Gen.KernelIdeal.Points
import proofs.«115206_j31198642438218_1_alg».proof.Proof.Gen.KernelIdeal.Frame
import proofs.«115206_j31198642438218_1_alg».proof.Proof.Gen.ReferenceIdeal
import proofs.«115206_j31198642438218_1_alg».proof.Proof.Gen.Pre_finite_inputs
import proofs.«115206_j31198642438218_1_alg».proof.Proof.KernelRun
import proofs.«115206_j31198642438218_1_alg».proof.Proof.KernelValue
import proofs.«115206_j31198642438218_1_alg».proof.Proof.RefRun
import proofs.«115206_j31198642438218_1_alg».proof.Proof.LibBiasRow
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the network of the specification: the kernel's at the launch contents of its
    arguments with the biases reshaped to rows, the reference's at its own with the biases broadcast to rows; the
    arguments agree and the two rows are one. -/
theorem algebraic : Cert.algebraic_KernelIdeal_ReferenceIdeal := by
  intro m ρ m' ρ' _ hagree
  refine ⟨fun c => Cert.ReferenceIdeal.Value.res_main_v84 m' c, ?_, Cert.ReferenceIdeal.Value.run (F := Ideal) m' ρ'⟩
  refine (θ_run Cert.KernelIdeal.defs _ _).mono (fun r h c => ⟨(h c).1.trans ?_, (h c).2⟩)
    (Cert.KernelIdeal.Hand.run_result (F := Ideal) m ρ)
  obtain ⟨e0, e1, e2, e3, e4, e5, e6, e7, e8⟩ := hagree c
  show _ = Cert.ReferenceIdeal.Value.res_main_v84 m' c
  rw [Cert.KernelIdeal.Hand.kernel_value m ρ c, Cert.ReferenceIdeal.Hand.result_eq m' c, e0, e1, e2, e3, e4, e5, e6, e7, e8]
  unfold Cert.KernelIdeal.Hand.b1row Cert.KernelIdeal.Hand.b2row Cert.KernelIdeal.Hand.borow
  rw [Cert.LibBiasRow.reshape_eq_broadcast (a := 64) _ _ Cert.ReferenceIdeal.Gen.bcast_S64_S1x64_1,
    Cert.LibBiasRow.reshape_eq_broadcast (a := 32) _ _ Cert.ReferenceIdeal.Gen.bcast_S32_S1x32_1,
    Cert.LibBiasRow.reshape_eq_broadcast (a := 1) _ _ Cert.ReferenceIdeal.Gen.bcast_S1_S1x1_1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
